-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S50000x128 .f32) (main_arg2 : FVec F S256x128 .f32) (main_arg3 : FVec F S128 .f32) (main_arg4 : FVec F S128 .f32) (main_arg5 : FVec F S128 .f32) (main_arg6 : FVec F S128x1 .f32) (main_arg7 : FVec F S1 .f32) (main_arg8 : IVec S1000000 32) (main_arg9 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S128x128 : Shape := ⟨2, ![128, 128]⟩
abbrev S20000x128 : Shape := ⟨2, ![20000, 128]⟩
abbrev S1x128 : Shape := ⟨2, ![1, 128]⟩
abbrev S1x1 : Shape := ⟨2, ![1, 1]⟩
abbrev S20000x1 : Shape := ⟨2, ![20000, 1]⟩
abbrev S20000 : Shape := ⟨1, ![20000]⟩

abbrev nBuf : Space → Nat
  | .hbm => 53
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1000000, .i32⟩
  | .hbm, ⟨9, _⟩ => ⟨S1000000, .i32⟩
  | .hbm, ⟨10, _⟩ => ⟨S100000x128, .bf16⟩
  | .hbm, ⟨11, _⟩ => ⟨S50000x128, .bf16⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .bf16⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .bf16⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S1000000x128, .bf16⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x1, .f32⟩
  | .hbm, ⟨51, _⟩ => ⟨S1000000x1, .f32⟩
  | .hbm, ⟨52, _⟩ => ⟨S1000000, .f32⟩
  | .local _ .vmem, ⟨0, _⟩ => ⟨S20000x128, .bf16⟩
  | .local _ .vmem, ⟨1, _⟩ => ⟨S20000x128, .bf16⟩
  | .local _ .vmem, ⟨2, _⟩ => ⟨S20000x128, .bf16⟩
  | .local _ .vmem, ⟨3, _⟩ => ⟨S20000x128, .bf16⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S20000x128, .bf16⟩
  | .local _ .vmem, ⟨8, _⟩ => ⟨S20000x128, .bf16⟩
  | .local _ .vmem, ⟨9, _⟩ => ⟨S128, .f32⟩
  | .local _ .vmem, ⟨10, _⟩ => ⟨S128, .f32⟩
  | .local _ .vmem, ⟨11, _⟩ => ⟨S20000x128, .bf16⟩
  | .local _ .vmem, ⟨12, _⟩ => ⟨S20000x128, .bf16⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S1x1, .f32⟩
  | .local _ .vmem, ⟨19, _⟩ => ⟨S20000x1, .f32⟩
  | .local _ .vmem, ⟨20, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S256x128_S128x128_0_0 : S256x128.Slices ![0, 0] S128x128
  slices_S256x128_S128x128_128_0 : S256x128.Slices ![128, 0] S128x128
  inb_S128_S128_0 : ∀ a, (![0] : Fin 1 → Nat) a + S128.size a ≤ S128.size a
  h_S128 : 0 < S128.numel
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S20000x128 : S1x128.Broadcasts S20000x128
  packedbf16_S20000x128_S20000x128_0_0 : (Rect.unit (s := S20000x128) ![0, 0] S20000x128.size inb_S20000x128_S20000x128_0_0).PackedRows (EltTy.packing .bf16)
  shapeCasts_S128_S128 : S128.ShapeCasts S128
  reduces_S20000x128_S128 : S20000x128.Reduces [0] S128
  bcast_S_S128 : S_.BroadcastsInDim S128 (![] : Fin 0 → Fin S128.rank)
  shapeCasts_S128x1_S128 : S128x1.ShapeCasts S128
  shapeCasts_S1_S1x1 : S1.ShapeCasts S1x1
  reduces_S20000x128_S20000 : S20000x128.Reduces [1] S20000
  shapeCasts_S20000_S20000x1 : S20000.ShapeCasts S20000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .bf16 = 32 ∨ (Rect.block (s := S1000000x128) S20000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x128.size a ≤ S1000000x128.size a
  hwx0_1 : ∀ i : grid0.Coords, EltTy.bits .bf16 = 32 ∨ (Rect.block (s := S1000000x128) S20000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x128.size a ≤ S1000000x128.size a
  hwx0_5 : ∀ i : grid0.Coords, EltTy.bits .bf16 = 32 ∨ (Rect.block (s := S1000000x128) S20000x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1000000x128.size a
  hwx1_0 : ∀ i : grid1.Coords, EltTy.bits .bf16 = 32 ∨ (Rect.block (s := S1000000x128) S20000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x1.size a ≤ S1000000x1.size a
  hwx1_7 : ∀ i : grid1.Coords, EltTy.bits .f32 = 32 ∨ (Rect.block (s := S1000000x1) S20000x1.size (cc1_transform_7 i) (hinb1_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v8) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S20000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S20000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S20000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1x128 : Shape := ⟨2, ![1, 128]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S1000000x256, .f32⟩
  | .hbm, ⟨29, _⟩ => ⟨S1000000x128, .f32⟩
  | .hbm, ⟨30, _⟩ => ⟨S1x128, .f32⟩
  | .hbm, ⟨31, _⟩ => ⟨S1000000x128, .f32⟩
  | .hbm, ⟨32, _⟩ => ⟨S1000000x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S1000000x128, .f32⟩
  | .hbm, ⟨40, _⟩ => ⟨S1000000x128, .f32⟩
  | .hbm, ⟨41, _⟩ => ⟨S1000000x128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1000000x128, .f32⟩
  | .hbm, ⟨49, _⟩ => ⟨S1000000x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1000000x128, .f32⟩
  | .hbm, ⟨56, _⟩ => ⟨S1000000x128, .f32⟩
  | .hbm, ⟨57, _⟩ => ⟨S1x128, .f32⟩
  | .hbm, ⟨58, _⟩ => ⟨S1000000x128, .f32⟩
  | .hbm, ⟨59, _⟩ => ⟨S1000000x128, .f32⟩
  | .hbm, ⟨60, _⟩ => ⟨S1x128, .f32⟩
  | .hbm, ⟨61, _⟩ => ⟨S1000000x128, .f32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S1000000x1, .f32⟩
  | .hbm, ⟨67, _⟩ => ⟨S1x1, .f32⟩
  | .hbm, ⟨68, _⟩ => ⟨S1000000x1, .f32⟩
  | .hbm, ⟨69, _⟩ => ⟨S1000000x1, .f32⟩
  | .hbm, ⟨70, _⟩ => ⟨S1000000, .f32⟩
  | .hbm, ⟨71, _⟩ => ⟨S1000000, .f32⟩
  | .hbm, ⟨72, _⟩ => ⟨S1000000, .f32⟩
  | .hbm, ⟨73, _⟩ => ⟨S_, .f32⟩
  | .hbm, ⟨74, _⟩ => ⟨S1000000, .f32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S128_d0 : S1000000x128.ReducesTo [0] S128
  h_S_ : 0 < S_.numel
  bcast_S_S128 : S_.BroadcastsInDim S128 (![] : Fin 0 → Fin S128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.Spec.lean ====
/-
  The mathematics both programs compute, as plain functions over the extended reals.

  An edge e of a bipartite graph carries two gathered embedding rows, xu(e, ·) and xf(e, ·), of 128 entries each.
  The first layer is z(e, h) = Σₖ xu(e, k)·wa(k, h) + Σₖ xf(e, k)·wb(k, h) + b1(h): the product of the concatenated
  row with a 256 × 128 matrix whose upper half is wa and lower half wb. Batch normalisation over the million edges
  takes, per unit h, the mean μ(h) = (0 + Σₑ z(e, h)) / N and a variance, scales by the reciprocal root of the
  variance plus ε, multiplies by γ(h) and adds β(h); then comes max(·, 0), the inner product with w2 plus b2, and the
  logistic function.

  Two forms of the variance occur: the mean of squares minus the squared mean (`varMS`), and the mean of the squared
  deviations (`varDev`). They agree when every z(e, h) is a real number and N is the number of edges.
-/
import Idealize.ShloMosaic.PureOps.Ideal
import Idealize.ShloMosaic.Lib.ValueIdx

noncomputable section

open scoped BigOperators

namespace Cert.EdgeScore

open Idealize.ShloMosaic Idealize.ShloMosaic.ValueIdx

/-- Edges × hidden units. -/
abbrev SEH : Shape := ⟨2, ![1000000, 128]⟩
/-- One weight half. -/
abbrev SHH : Shape := ⟨2, ![128, 128]⟩
/-- Per hidden unit. -/
abbrev SH : Shape := ⟨1, ![128]⟩
/-- One score per edge, as a column. -/
abbrev SE1 : Shape := ⟨2, ![1000000, 1]⟩
/-- A single entry. -/
abbrev S11 : Shape := ⟨2, ![1, 1]⟩
/-- One score per edge. -/
abbrev SE : Shape := ⟨1, ![1000000]⟩

/-- The four float literals the programs share, kept as their words. -/
abbrev zero : EReal := Ideal.ofBits .f32 0x00000000#32
abbrev one : EReal := Ideal.ofBits .f32 0x3F800000#32
abbrev million : EReal := Ideal.ofBits .f32 0x49742400#32
abbrev eps : EReal := Ideal.ofBits .f32 0x3727C5AC#32

/-- The first layer at edge `e` and unit `h`. -/
def lin1 (xu xf : SEH.Idx → EReal) (wa wb : SHH.Idx → EReal) (b1 : SH.Idx → EReal) (e : Fin 1000000) (h : Fin 128) : EReal :=
  ((∑ k : Fin 128, xu (ix2 e k) * wa (ix2 k h)) + ∑ k : Fin 128, xf (ix2 e k) * wb (ix2 k h)) + b1 (ix1 h)

/-- The first layer as an array. -/
def lin1Arr (xu xf : SEH.Idx → EReal) (wa wb : SHH.Idx → EReal) (b1 : SH.Idx → EReal) : SEH.Idx → EReal :=
  fun i => lin1 xu xf wa wb b1 (i 0) (i 1)

/-- The column sums of an edges × units array, from zero. -/
def colSum (z : SEH.Idx → EReal) : SH.Idx → EReal := fun j => zero + ∑ e : Fin 1000000, z (ix2 e (j 0))

/-- The column sums of its squares, from zero. -/
def colSumSq (z : SEH.Idx → EReal) : SH.Idx → EReal := fun j => zero + ∑ e : Fin 1000000, z (ix2 e (j 0)) * z (ix2 e (j 0))

/-- The mean of column `h`. -/
def mean (z : Fin 1000000 → Fin 128 → EReal) (h : Fin 128) : EReal := Ideal.div (zero + ∑ e : Fin 1000000, z e h) million

/-- The variance of column `h` as the mean of squares minus the squared mean. -/
def varMS (z : Fin 1000000 → Fin 128 → EReal) (h : Fin 128) : EReal :=
  Ideal.div (zero + ∑ e : Fin 1000000, z e h * z e h) million - mean z h * mean z h

/-- The variance of column `h` as the mean of the squared deviations. -/
def varDev (z : Fin 1000000 → Fin 128 → EReal) (h : Fin 128) : EReal :=
  Ideal.div (zero + ∑ e : Fin 1000000, (z e h - mean z h) * (z e h - mean z h)) million

/-- The normalised, rectified activation of edge `e` at unit `h`, for a mean `mu` and a scale `inv`. -/
def act (zeh mu inv ga be : EReal) : EReal := max ((((zeh - mu) * inv) * ga) + be) zero

/-- The score of edge `e` before the logistic function. -/
def logit (z : Fin 1000000 → Fin 128 → EReal) (mu inv ga be w2 : Fin 128 → EReal) (b2 : EReal) (e : Fin 1000000) : EReal :=
  (∑ h : Fin 128, act (z e h) (mu h) (inv h) (ga h) (be h) * w2 h) + b2

/-- The score of edge `e`: normalise with the mean and `varMS`, rectify, contract with `w2`, add `b2`, apply the logistic. -/
def score (z : Fin 1000000 → Fin 128 → EReal) (ga be w2 : Fin 128 → EReal) (b2 : EReal) (e : Fin 1000000) : EReal :=
  Ideal.logistic (logit z (mean z) (fun h => Ideal.rsqrt (varMS z h + eps)) ga be w2 b2 e)

end Cert.EdgeScore

end
-- ==== Proof.KernelHost.lean ====
/-
  What the kernel program's host code hands the first launch, as functions of the program's arguments: the two
  gathered row arrays (an index below zero counts from the table's end; the table narrowed to half precision, which
  is the identity over the extended reals) and the two halves of the first weight matrix; and the program's result as one
  function of its arguments.
-/
import proofs.«118335_j11098195493028_1_alg».proof.Proof.Gen.KernelIdeal
import Idealize.ShloMosaic.PureOps.Ideal
import proofs.«118335_j11098195493028_1_alg».proof.Proof.Spec

noncomputable section

namespace Cert.KernelIdeal.HostVal

open Cert.KernelIdeal Cert.KernelIdeal.Gen Cert.EdgeScore Idealize.ShloMosaic Idealize.ShloMosaic.ValueIdx

/-- The gathered user rows: row `e` is row `row e` of the user table (`row e + 100000` when `row e` is negative),
    the position clamped into the table. -/
def xu (a0 : FVec Ideal S100000x128 .f32) (a8 : IVec S1000000 32) : FVec Ideal S1000000x128 .bf16 :=
  Host.gather gather_S100000x128_S1000000x1_S1000000x128_1_0_n_n_0_1_1128 (truncf .bf16 a0 bitsLt_bf16_f32)
    (broadcastInDim S1000000x1 ![0] bcast_S1000000_S1000000x1_0
      (select (cmpi .slt a8 (broadcastInDim S1000000 ![] bcast_S_S1000000 (constantI S_ 32 0#32)))
        (addi a8 (broadcastInDim S1000000 ![] bcast_S_S1000000 (constantI S_ 32 100000#32))) a8))

/-- The gathered food rows, likewise from the food table of 50000 rows. -/
def xf (a1 : FVec Ideal S50000x128 .f32) (a9 : IVec S1000000 32) : FVec Ideal S1000000x128 .bf16 :=
  Host.gather gather_S50000x128_S1000000x1_S1000000x128_1_0_n_n_0_1_1128 (truncf .bf16 a1 bitsLt_bf16_f32)
    (broadcastInDim S1000000x1 ![0] bcast_S1000000_S1000000x1_0
      (select (cmpi .slt a9 (broadcastInDim S1000000 ![] bcast_S_S1000000 (constantI S_ 32 0#32)))
        (addi a9 (broadcastInDim S1000000 ![] bcast_S_S1000000 (constantI S_ 32 50000#32))) a9))

/-- The upper half of the first weight matrix (rows 0 to 127). -/
def wa (a2 : FVec Ideal S256x128 .f32) : FVec Ideal S128x128 .bf16 :=
  truncf .bf16 (extractStridedSlice S128x128 ![0, 0] a2 slices_S256x128_S128x128_0_0) bitsLt_bf16_f32

/-- The lower half of the first weight matrix (rows 128 to 255). -/
def wb (a2 : FVec Ideal S256x128 .f32) : FVec Ideal S128x128 .bf16 :=
  truncf .bf16 (extractStridedSlice S128x128 ![128, 0] a2 slices_S256x128_S128x128_128_0) bitsLt_bf16_f32

/-- The first layer as the kernel program computes it from its arguments. -/
def zK (a0 : FVec Ideal S100000x128 .f32) (a1 : FVec Ideal S50000x128 .f32) (a2 : FVec Ideal S256x128 .f32)
    (a3 : FVec Ideal S128 .f32) (a8 a9 : IVec S1000000 32) (e : Fin 1000000) (h : Fin 128) : EReal :=
  lin1 (xu a0 a8) (xf a1 a9) (wa a2) (wb a2) a3 e h

/-- The kernel program's result, edge by edge: the score over that first layer, γ, β, the second layer's weights
    and bias. -/
def out (a0 : FVec Ideal S100000x128 .f32) (a1 : FVec Ideal S50000x128 .f32) (a2 : FVec Ideal S256x128 .f32)
    (a3 a4 a5 : FVec Ideal S128 .f32) (a6 : FVec Ideal S128x1 .f32) (a7 : FVec Ideal S1 .f32) (a8 a9 : IVec S1000000 32) :
    FVec Ideal S1000000 .f32 :=
  fun i => score (zK a0 a1 a2 a3 a8 a9) (fun h => a4 (ix1 h)) (fun h => a5 (ix1 h)) (fun h => a6 (ix2 h (0 : Fin 1)))
    (a7 (ix1 (0 : Fin 1))) (i 0)

end Cert.KernelIdeal.HostVal

end
-- ==== Proof.Stretches.lean ====
/-
  The buffer contents at the boundaries of the kernel program's host stretches, read at the buffers the two launches
  take: before the first launch the gathered rows and weight halves; between the launches the column statistics
  turned into a mean and a reciprocal root, the reshaped second-layer weights; after the second launch the scores
  reshaped to one per edge.

  Each host stretch is a fold of its operations over the contents it enters with. At the buffer an operation writes
  the fold holds that operation's function of its operands' contents; at any other buffer it holds what was there.
  Reading the fold back operation by operation therefore leaves the composed term of the operations that feed the
  buffer, over the contents the stretch entered with; a buffer nothing writes is read back to the launch memory.
-/
import proofs.«118335_j11098195493028_1_alg».proof.Proof.Gen.KernelIdeal.Frame
import proofs.«118335_j11098195493028_1_alg».proof.Proof.KernelHost
import Idealize.ShloMosaic.Lib.StableHlo.Run

set_option maxRecDepth 16384

noncomputable section

namespace Cert.KernelIdeal.Stretch

open Cert.KernelIdeal Cert.KernelIdeal.Gen Cert.KernelIdeal.HostVal Idealize.ShloMosaic Idealize.ShloMosaic.TcCoe Idealize.SL.Sem

variable (m : (ℓ : Loc nD τ sig) → Buf (Elt Ideal) ℓ) (ρ : Dev nD → PrngReg)

/-! ## Before the first launch -/

theorem V1_v8 (c : Dev nD) : V1 m ρ c main_v8 = xu (m ((c : Thread nD τ).loc main_arg0)) (m ((c : Thread nD τ).loc main_arg8)) := by
  show StableHlo.after hostOps0 (W0 m ρ c) (Proc.devRef .tc main_v8) = _
  after_results
  rfl
theorem V1_v15 (c : Dev nD) : V1 m ρ c main_v15 = xf (m ((c : Thread nD τ).loc main_arg1)) (m ((c : Thread nD τ).loc main_arg9)) := by
  show StableHlo.after hostOps0 (W0 m ρ c) (Proc.devRef .tc main_v15) = _
  after_results
  rfl
theorem V1_v17 (c : Dev nD) : V1 m ρ c main_v17 = wa (m ((c : Thread nD τ).loc main_arg2)) := by
  show StableHlo.after hostOps0 (W0 m ρ c) (Proc.devRef .tc main_v17) = _
  after_results
  rfl
theorem V1_v19 (c : Dev nD) : V1 m ρ c main_v19 = wb (m ((c : Thread nD τ).loc main_arg2)) := by
  show StableHlo.after hostOps0 (W0 m ρ c) (Proc.devRef .tc main_v19) = _
  after_results
  rfl
/-- No operation of the first stretch writes the fourth argument. -/
theorem V1_arg3 (c : Dev nD) : V1 m ρ c main_arg3 = m ((c : Thread nD τ).loc main_arg3) := by
  show StableHlo.after hostOps0 (W0 m ρ c) (Proc.devRef .tc main_arg3) = _
  after_results

/-! ## Between the launches, over the first launch's exit contents `V2` -/

/-- An argument that is none of the first launch's arrays and that no operation of the first stretch writes holds its
    launch contents at the first launch's exit. -/
private theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
private theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
private theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
private theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

/-- No operation of the second stretch writes the first launch's first output. -/
theorem V3_v20_0 (c : Dev nD) : V3 m ρ c main_v20_0 = V2 m ρ c main_v20_0 := by
  show StableHlo.after hostOps1 (W2 m ρ c) (Proc.devRef .tc main_v20_0) = _
  after_results
/-- The column mean: the column sums over the number of edges, 1000000. -/
theorem V3_v22 (c : Dev nD) : V3 m ρ c main_v22
    = Host.divf (V2 m ρ c main_v20_1) (broadcastInDim S128 ![] bcast_S_S128 (constant (F := Ideal) S_ .f32 0x49742400#32)) := by
  show StableHlo.after hostOps1 (W2 m ρ c) (Proc.devRef .tc main_v22) = _
  after_results
/-- The reciprocal root of the column variance (mean of squares less squared mean) plus the small constant. -/
theorem V3_v29 (c : Dev nD) : V3 m ρ c main_v29
    = Host.rsqrt (addf (subf (Host.divf (V2 m ρ c main_v20_2) (broadcastInDim S128 ![] bcast_S_S128 (constant (F := Ideal) S_ .f32 0x49742400#32)))
        (mulf (Host.divf (V2 m ρ c main_v20_1) (broadcastInDim S128 ![] bcast_S_S128 (constant (F := Ideal) S_ .f32 0x49742400#32)))
          (Host.divf (V2 m ρ c main_v20_1) (broadcastInDim S128 ![] bcast_S_S128 (constant (F := Ideal) S_ .f32 0x49742400#32)))))
        (broadcastInDim S128 ![] bcast_S_S128 (constant (F := Ideal) S_ .f32 0x3727C5AC#32))) := by
  show StableHlo.after hostOps1 (W2 m ρ c) (Proc.devRef .tc main_v29) = _
  after_results
theorem V3_arg4 (c : Dev nD) : V3 m ρ c main_arg4 = m ((c : Thread nD τ).loc main_arg4) := by
  show StableHlo.after hostOps1 (W2 m ρ c) (Proc.devRef .tc main_arg4) = _
  after_results
  exact W2_arg4 m ρ c
theorem V3_arg5 (c : Dev nD) : V3 m ρ c main_arg5 = m ((c : Thread nD τ).loc main_arg5) := by
  show StableHlo.after hostOps1 (W2 m ρ c) (Proc.devRef .tc main_arg5) = _
  after_results
  exact W2_arg5 m ρ c
theorem V3_v30 (c : Dev nD) : V3 m ρ c main_v30 = shapeCast S128 (m ((c : Thread nD τ).loc main_arg6)) shapeCasts_S128x1_S128 := by
  show StableHlo.after hostOps1 (W2 m ρ c) (Proc.devRef .tc main_v30) = _
  after_results
  rw [W2_arg6 m ρ c]
  rfl
theorem V3_v31 (c : Dev nD) : V3 m ρ c main_v31 = shapeCast S1x1 (m ((c : Thread nD τ).loc main_arg7)) shapeCasts_S1_S1x1 := by
  show StableHlo.after hostOps1 (W2 m ρ c) (Proc.devRef .tc main_v31) = _
  after_results
  rw [W2_arg7 m ρ c]
  rfl

/-! ## After the second launch, over its exit contents `V4` -/

theorem W5_v33 (c : Dev nD) : W5 m ρ c (Proc.devRef .tc main_v33)
    = shapeCast S1000000 (V4 m ρ c main_v32) shapeCasts_S1000000x1_S1000000 := by
  show StableHlo.after hostOps2 (W4 m ρ c) (Proc.devRef .tc main_v33) = _
  after_results
  rfl

end Cert.KernelIdeal.Stretch

end
-- ==== Proof.Region0Body.lean ====
/-
  What one run of the first launch's body leaves in its three output blocks, as values. At the first grid point the
  body first stores zero into the two running sums; at every point it stores the block's first-layer activations,
  adds the block's column sums to the first running sum and the column sums of the squares to the second. So the
  activations block is the same pure function of the loaded blocks in both cases, and each running sum is that
  point's addend added to zero (first point) or to what the point before left (later points).
-/
import proofs.«118335_j11098195493028_1_alg».proof.Proof.Gen.KernelIdeal.Frame
import Idealize.ShloMosaic.Lib.Pipeline.Value
import Idealize.ShloMosaic.Lib.Tactic

set_option maxRecDepth 16384

noncomputable section

namespace Cert.KernelIdeal.Stage0Body

open Cert.KernelIdeal Cert.KernelIdeal.Gen Idealize.ShloMosaic Idealize.ShloMosaic.TcCoe Idealize.ShloMosaic.Tactic Idealize.SL.Sem

variable {F : FTy → Type} [FloatOps F]

/-- The printed zero offsets of a rank-2 block are the zero function. -/
private theorem hz2 : (![0, 0] : Fin 2 → Nat) = fun _ => 0 := funext fun a => by fin_cases a <;> rfl

/-- The printed zero offset of a rank-1 block is the zero function. -/
private theorem hz1 : (![0] : Fin 1 → Nat) = fun _ => 0 := funext fun a => by fin_cases a <;> rfl

/-- First point: the activations block. -/
theorem outA5 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i)
    (x0 : Vec F S20000x128 .bf16) (x1 : Vec F S20000x128 .bf16) (x2 : Vec F S128x128 .bf16) (x3 : Vec F S128x128 .bf16) (x4 : Vec F S128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S20000x128) hz2]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- First point: the running sum starts from the zero block. -/
theorem outA6 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i)
    (x0 : Vec F S20000x128 .bf16) (x1 : Vec F S20000x128 .bf16) (x2 : Vec F S128x128 .bf16) (x3 : Vec F S128x128 .bf16) (x4 : Vec F S128 .f32) :
    out0_A_6 c i a1 h1 a2 h2 a3 h3 a4 h4 a5 h5 a6 h6 a7 h7 a8 h8 hc x0 x1 x2 x3 x4 = k0_pay5 x0 x1 x2 x3 x4 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- First point: the running sum of squares starts from the zero block. -/
theorem outA7 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : cond0_0 i)
    (x0 : Vec F S20000x128 .bf16) (x1 : Vec F S20000x128 .bf16) (x2 : Vec F S128x128 .bf16) (x3 : Vec F S128x128 .bf16) (x4 : Vec F S128 .f32) :
    out0_A_7 c i a1 h1 a2 h2 a3 h3 a4 h4 a5 h5 a6 h6 a7 h7 a8 h8 hc x0 x1 x2 x3 x4 = k0_pay6 x0 x1 x2 x3 x4 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- Later points: the activations block. -/
theorem outB5 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i)
    (x0 : Vec F S20000x128 .bf16) (x1 : Vec F S20000x128 .bf16) (x2 : Vec F S128x128 .bf16) (x3 : Vec F S128x128 .bf16) (x4 : Vec F S128 .f32) (xo6 xo7 : Vec F S128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S20000x128) hz2]
  simp only [View.readAt_eq_ld, h1.read_unread, h2.read_unread, h3.read_unread, h4.read_unread, h5.read_unread, View.ld_unit_zero (S := S20000x128) hz2, View.ld_unit_zero (S := S128x128) hz2, View.ld_unit_zero (S := S128) hz1]

/-- Later points: the running sum continues from what the point before left. -/
theorem outB6 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i)
    (x0 : Vec F S20000x128 .bf16) (x1 : Vec F S20000x128 .bf16) (x2 : Vec F S128x128 .bf16) (x3 : Vec F S128x128 .bf16) (x4 : Vec F S128 .f32) (xo6 xo7 : Vec F S128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S128) hz1]
  simp only [View.readAt_eq_ld, h1.read_unread, h2.read_unread, h3.read_unread, h4.read_unread, h5.read_unread, h7.read_unread, View.ld_unit_zero (S := S20000x128) hz2, View.ld_unit_zero (S := S128x128) hz2, View.ld_unit_zero (S := S128) hz1]

/-- Later points: the running sum of squares continues from what the point before left. -/
theorem outB7 (c : Dev nD) (i : grid0.Coords) (a1 : Memref sig .tc .vmem S20000x128 .bf16) (h1 : a1.IsWhole) (a2 : Memref sig .tc .vmem S20000x128 .bf16) (h2 : a2.IsWhole) (a3 : Memref sig .tc .vmem S128x128 .bf16) (h3 : a3.IsWhole) (a4 : Memref sig .tc .vmem S128x128 .bf16) (h4 : a4.IsWhole) (a5 : Memref sig .tc .vmem S128 .f32) (h5 : a5.IsWhole) (a6 : Memref sig .tc .vmem S20000x128 .bf16) (h6 : a6.IsWhole) (a7 : Memref sig .tc .vmem S128 .f32) (h7 : a7.IsWhole) (a8 : Memref sig .tc .vmem S128 .f32) (h8 : a8.IsWhole) (hc : ¬cond0_0 i)
    (x0 : Vec F S20000x128 .bf16) (x1 : Vec F S20000x128 .bf16) (x2 : Vec F S128x128 .bf16) (x3 : Vec F S128x128 .bf16) (x4 : Vec F S128 .f32) (xo6 xo7 : Vec F S128 .f32) :
    out0_B_7 c i a1 h1 a2 h2 a3 h3 a4 h4 a5 h5 a6 h6 a7 h7 a8 h8 hc x0 x1 x2 x3 x4 xo6 xo7 = k0_pay6 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S128) hz1]
  simp only [View.readAt_eq_ld, h1.read_unread, h2.read_unread, h3.read_unread, h4.read_unread, h5.read_unread, h8.read_unread, View.ld_unit_zero (S := S20000x128) hz2, View.ld_unit_zero (S := S128x128) hz2, View.ld_unit_zero (S := S128) hz1]

end Cert.KernelIdeal.Stage0Body

end
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.LibColSums.lean ====
/-
  THE SUM DOWN THE COLUMNS OF A MATRIX, READ AT AN INDEX (a general lemma; it mentions no program).

  A vector reduction with `add` of an [n, m] matrix over its first axis leaves an [m] vector whose entry l is, on the
  extended reals, the finite sum over r of the matrix's entries (r, l).
-/
import Idealize.ShloMosaic.PureOps.Ideal.Laws
import Idealize.ShloMosaic.Lib.ValueIdx

noncomputable section

open scoped BigOperators

namespace Cert.Lib.ColSums

open Idealize.ShloMosaic Idealize.ShloMosaic.ValueIdx

/-- Column l of an [n, m] matrix, summed: the reduction over axis 0 at l is the sum over the column's n entries. -/
theorem multiReduction_cols_apply {n m : ℕ} {φ : FTy} (src : FVec Ideal (⟨2, ![n, m]⟩ : Shape) φ) (acc : BitVec φ.bits)
    (h : (⟨2, ![n, m]⟩ : Shape).Reduces [0] (⟨1, ![m]⟩ : Shape)) (hφ : FKind.Formats φ) (hacc : acc = FKind.add.neutral φ hφ)
    (l : Fin m) :
    multiReduction .add [0] (⟨1, ![m]⟩ : Shape) src acc h hφ hacc (ix1 l) = ∑ r : Fin n, src (ix2 r l) := by
  rw [Ideal.multiReduction_add_single src acc h hφ hacc (ix1 l)]
  refine Finset.sum_congr rfl fun r _ => congrArg src (funext fun a => Fin.ext ?_)
  match a with
  | ⟨0, _⟩ => rfl
  | ⟨1, _⟩ => rfl

end Cert.Lib.ColSums

end
-- ==== Proof.Region0Pay.lean ====
/-
  The first launch's body arithmetic read at an index, over the extended reals: the block's first-layer activation
  at row r and unit h; the running sum after the body as the carried value plus the block's column sum; the running
  sum of squares likewise; the reset value as the zero word.
-/
import proofs.«118335_j11098195493028_1_alg».proof.Proof.Gen.KernelIdeal.Skeleton
import proofs.«118335_j11098195493028_1_alg».proof.Proof.Spec
import proofs.«118335_j11098195493028_1_alg».proof.Proof.LibRowDots
import proofs.«118335_j11098195493028_1_alg».proof.Proof.LibColSums
import Idealize.ShloMosaic.Lib.Pipeline.Value
import Idealize.ShloMosaic.Lib.ValueLayout
import Idealize.ShloMosaic.PureOps.Ideal.Laws

noncomputable section

open scoped BigOperators

namespace Cert.KernelIdeal.Stage0Pay

open Cert.KernelIdeal Cert.KernelIdeal.Gen Cert.EdgeScore Idealize.ShloMosaic Idealize.ShloMosaic.ValueIdx

/-- The first layer of row `r` of a block of 20000 edges at unit `h`. -/
def blockAct (x0 x1 : FVec Ideal S20000x128 .bf16) (x2 x3 : FVec Ideal S128x128 .bf16) (x4 : FVec Ideal S128 .f32)
    (r : Fin 20000) (h : Fin 128) : EReal :=
  ((∑ k : Fin 128, x0 (ix2 r k) * x2 (ix2 k h)) + ∑ k : Fin 128, x1 (ix2 r k) * x3 (ix2 k h)) + x4 (ix1 h)

/-- The two products contract the left operand's columns with the right operand's rows. -/
private theorem hPlain : Cert.Lib.RowDots.Plain dot_S20000x128_S128x128_S20000x128_1_0_0_1_n_n := ⟨rfl, rfl, rfl, rfl, rfl, rfl⟩

variable (x0 x1 : FVec Ideal S20000x128 .bf16) (x2 x3 : FVec Ideal S128x128 .bf16) (x4 acc : FVec Ideal S128 .f32)

theorem pay3_apply (r : Fin 20000) (h : Fin 128) :
    k0_pay3 (F := Ideal) x0 x1 x2 x3 x4 (ix2 r h) = blockAct x0 x1 x2 x3 x4 r h := by
  unfold k0_pay3 blockAct
  rw [addf_apply, addf_apply]
  simp only [shapeCast_self]
  refine congrArg₂ (· + ·) (congrArg₂ (· + ·) ?_ ?_) ?_
  · exact hPlain.matmul_zero_apply none x0 x2 (ix2 r h)
  · exact hPlain.matmul_zero_apply none x1 x3 (ix2 r h)
  · exact (broadcastTo_1b_ab_apply _ _ r h).trans (shapeCast_a_1a_apply x4 _ 0 h)

theorem pay4_apply (r : Fin 20000) (h : Fin 128) :
    k0_pay4 (F := Ideal) x0 x1 x2 x3 x4 (ix2 r h) = blockAct x0 x1 x2 x3 x4 r h := by
  unfold k0_pay4
  exact (truncf_apply (ψ := .bf16) (k0_pay3 (F := Ideal) x0 x1 x2 x3 x4) bitsLt_bf16_f32 (ix2 r h)).trans (pay3_apply x0 x1 x2 x3 x4 r h)

theorem pay5_apply (h : Fin 128) :
    k0_pay5 (F := Ideal) x0 x1 x2 x3 x4 acc (ix1 h) = acc (ix1 h) + ∑ r : Fin 20000, blockAct x0 x1 x2 x3 x4 r h := by
  unfold k0_pay5
  dsimp only
  rw [addf_apply, shapeCast_self]
  refine congrArg (acc (ix1 h) + ·) ?_
  refine (Cert.Lib.ColSums.multiReduction_cols_apply (k0_pay3 (F := Ideal) x0 x1 x2 x3 x4) _ _ _ _ h).trans ?_
  exact Finset.sum_congr rfl fun r _ => pay3_apply x0 x1 x2 x3 x4 r h

theorem pay6_apply (h : Fin 128) :
    k0_pay6 (F := Ideal) x0 x1 x2 x3 x4 acc (ix1 h)
      = acc (ix1 h) + ∑ r : Fin 20000, blockAct x0 x1 x2 x3 x4 r h * blockAct x0 x1 x2 x3 x4 r h := by
  unfold k0_pay6
  dsimp only
  rw [addf_apply, shapeCast_self]
  refine congrArg (acc (ix1 h) + ·) ?_
  refine (Cert.Lib.ColSums.multiReduction_cols_apply (mulf (k0_pay3 (F := Ideal) x0 x1 x2 x3 x4) (k0_pay3 (F := Ideal) x0 x1 x2 x3 x4)) _ _ _ _ h).trans ?_
  refine Finset.sum_congr rfl fun r _ => ?_
  rw [mulf_apply, pay3_apply x0 x1 x2 x3 x4 r h]

theorem pay1_apply (h : Fin 128) : k0_pay1 (F := Ideal) (ix1 h) = zero := by
  rfl

theorem pay2_apply (h : Fin 128) : k0_pay2 (F := Ideal) (ix1 h) = zero := by
  rfl

end Cert.KernelIdeal.Stage0Pay

end
-- ==== Proof.Sums.lean ====
/-
  The algebra the two programs' agreement rests on.

  * The three float words that have to be read as numbers: the zero word is 0, the word of 1.0 is 1, the word of 10⁶ is
    the real number 1000000.
  * A sum over all rows of an array taken block by block, fifty blocks of 20000 rows, is the sum over all rows.
  * A sum over 256 positions is the sum over the first 128 plus the sum over the last 128.
  * The variance identity: when every entry of a column is a real number and N is the number of entries, the mean of
    the squared deviations from the mean equals the mean of squares minus the squared mean.
-/
import proofs.«118335_j11098195493028_1_alg».proof.Proof.Spec
import Mathlib.Algebra.BigOperators.Fin
import Mathlib.Tactic.Ring
import Mathlib.Tactic.FieldSimp

noncomputable section

open scoped BigOperators

namespace Cert.EdgeScore

open Idealize.ShloMosaic Idealize.ShloMosaic.ValueIdx

/-! ### General lemmas -/

/-- The coercion of the reals into the extended reals commutes with finite sums. -/
theorem coe_sum {ι : Type*} (s : Finset ι) (g : ι → ℝ) :
    ∑ i ∈ s, ((g i : ℝ) : EReal) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum over `n = a * b` consecutive naturals, taken as `a` blocks of `b`, is the sum over all of them. -/
theorem sum_blocks_gen {M : Type*} [AddCommMonoid M] (a b n : ℕ) (hab : a * b = n) (f : ℕ → M) :
    ∑ s ∈ Finset.range a, ∑ r : Fin b, f (b * s + r.val) = ∑ e : Fin n, f e.val := by
  subst hab
  rw [← Fin.sum_univ_eq_sum_range (fun s => ∑ r : Fin b, f (b * s + r.val)) a]
  rw [← Fintype.sum_prod_type' (f := fun (s : Fin a) (r : Fin b) => f (b * s.val + r.val))]
  refine Fintype.sum_equiv finProdFinEquiv _ _ (fun p => ?_)
  rw [finProdFinEquiv_apply_val, Nat.add_comm]

/-- Over the reals: with `μ` the mean of `n ≠ 0` numbers, the mean of the squared deviations from `μ` is the mean of
    the squares minus `μ²`. The count `n` enters as the real number `N`. -/
theorem real_var_identity (n : ℕ) (N : ℝ) (hnN : (n : ℝ) = N) (hN : N ≠ 0) (r : Fin n → ℝ) :
    (∑ e, (r e - (∑ e, r e) * (1 / N)) * (r e - (∑ e, r e) * (1 / N))) * (1 / N)
      = (∑ e, r e * r e) * (1 / N) - ((∑ e, r e) * (1 / N)) * ((∑ e, r e) * (1 / N)) := by
  have key : ∀ μ : ℝ, ∑ e, (r e - μ) * (r e - μ) = (∑ e, r e * r e) - 2 * μ * (∑ e, r e) + N * (μ * μ) := by
    intro μ
    have hexp : ∀ e, (r e - μ) * (r e - μ) = r e * r e - 2 * μ * r e + μ * μ := fun e => by ring
    simp only [hexp]
    rw [Finset.sum_add_distrib, Finset.sum_sub_distrib, ← Finset.mul_sum, Finset.sum_const, Finset.card_univ,
      Fintype.card_fin, nsmul_eq_mul, hnN]
  rw [key]
  field_simp
  ring

/-! ### The seven facts -/

/-- The zero word denotes 0. -/
theorem zero_eq : zero = 0 := by
  simp [Ideal.ofBits, Ideal.ieee]

/-- The word of 1.0 denotes 1. -/
theorem one_eq : one = 1 := by
  simp [Ideal.ofBits, Ideal.ieee, -EReal.coe_mul]; norm_num

/-- The word of 10⁶ denotes the real number 1000000. -/
theorem million_eq : million = ((1000000 : ℝ) : EReal) := by
  simp [Ideal.ofBits, Ideal.ieee, -EReal.coe_mul]; norm_num

/-- Fifty blocks of 20000 consecutive rows are all the million rows. -/
theorem sum_blocks (f : ℕ → EReal) :
    ∑ s ∈ Finset.range 50, ∑ r : Fin 20000, f (20000 * s + r.val) = ∑ e : Fin 1000000, f e.val :=
  sum_blocks_gen 50 20000 1000000 (by norm_num) f

/-- A sum over 256 positions splits into its two halves. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) f

/-- The variance identity on a column of real numbers. -/
theorem varDev_eq_varMS (z : Fin 1000000 → Fin 128 → EReal) (h : Fin 128) (hz : ∀ e, ∃ r : ℝ, z e h = (r : EReal)) :
    varDev z h = varMS z h := by
  choose r hr using hz
  have hN : (1000000 : ℝ) ≠ 0 := by norm_num
  have hmean : mean z h = (((∑ e, r e) * (1 / (1000000 : ℝ)) : ℝ) : EReal) := by
    unfold mean
    rw [zero_eq, million_eq, Ideal.div_coe hN, zero_add]
    simp only [hr]
    rw [coe_sum, ← EReal.coe_mul]
  unfold varDev varMS
  rw [hmean, zero_eq, million_eq, Ideal.div_coe hN, Ideal.div_coe hN, zero_add, zero_add]
  simp only [hr, ← EReal.coe_sub, ← EReal.coe_mul, coe_sum]
  rw [real_var_identity 1000000 1000000 (by norm_num) hN r]

/-- The first layer of real operands is a real number. -/
theorem lin1_real (xu xf : SEH.Idx → EReal) (wa wb : SHH.Idx → EReal) (b1 : SH.Idx → EReal)
    (hxu : ∀ i, ∃ r : ℝ, xu i = (r : EReal)) (hxf : ∀ i, ∃ r : ℝ, xf i = (r : EReal))
    (hwa : ∀ i, ∃ r : ℝ, wa i = (r : EReal)) (hwb : ∀ i, ∃ r : ℝ, wb i = (r : EReal))
    (hb1 : ∀ i, ∃ r : ℝ, b1 i = (r : EReal)) (e : Fin 1000000) (h : Fin 128) :
    ∃ r : ℝ, lin1 xu xf wa wb b1 e h = (r : EReal) := by
  choose rxu hrxu using hxu
  choose rxf hrxf using hxf
  choose rwa hrwa using hwa
  choose rwb hrwb using hwb
  choose rb1 hrb1 using hb1
  refine ⟨((∑ k : Fin 128, rxu (ix2 e k) * rwa (ix2 k h)) + ∑ k : Fin 128, rxf (ix2 e k) * rwb (ix2 k h))
    + rb1 (ix1 h), ?_⟩
  unfold lin1
  simp only [hrxu, hrxf, hrwa, hrwb, hrb1, ← EReal.coe_mul, coe_sum, ← EReal.coe_add]

end Cert.EdgeScore

end
-- ==== Proof.Region0Blk.lean ====
/-
  The first launch's input blocks read off the arrays the launch is entered with: at grid point t the two row
  windows hold rows 20000·t … 20000·t + 19999 of their arrays; the two weight halves and the bias are whole.

  A block's coordinate in its array is, on every axis, the window's block index times the block's extent plus the
  coordinate inside the block. The row windows' block index at grid point t is (t, 0) at each of the 50 grid
  points; the whole-array windows' block index is 0 on every axis.
-/
import proofs.«118335_j11098195493028_1_alg».proof.Proof.Gen.KernelIdeal.Frame
import Idealize.ShloMosaic.Lib.Pipeline.Value
import Idealize.ShloMosaic.Lib.ValueIdx

set_option maxRecDepth 16384

noncomputable section

namespace Cert.KernelIdeal.Stage0Blk

open Cert.KernelIdeal Cert.KernelIdeal.Gen Idealize.ShloMosaic Idealize.ShloMosaic.ValueIdx Idealize.ShloMosaic.TcCoe Idealize.SL.Sem

/-- Row `r` of the block of grid point `t`, as a row of the whole array. -/
def row (t : Fin cfg0.N) (r : Fin 20000) : Fin 1000000 :=
  ⟨20000 * t.val + r.val, by have h1 := t.isLt; have h2 := r.isLt; have h3 : cfg0.N = 50 := N_0; omega⟩

theorem row_val (t : Fin cfg0.N) (r : Fin 20000) : (row t r).val = 20000 * t.val + r.val := rfl

variable (V : (c : Dev nD) → (b : Ref sig .tc) → Buf (Elt Ideal) ((c : Thread nD τ).loc b))

/-- The user-row window at point `t`. -/
theorem blk0 (c : Dev nD) (t : Fin cfg0.N) (r : Fin 20000) (k : Fin 128) :
    (iblk0 (F := Ideal) V c 0 t : FVec Ideal S20000x128 .bf16) (ix2 r k) = V c main_v8 (ix2 (row t r) k) := by
  have hi : ∀ t : Fin cfg0.N, win0_0.index t (0 : Fin 2) = t.val ∧ win0_0.index t (1 : Fin 2) = 0 :=
    (by decide +kernel : ∀ t : Fin grid0.N, _)
  unfold iblk0
  rw [View.read_apply]
  show V c main_v8 _ = V c main_v8 _
  refine congrArg (V c main_v8) ?_
  funext a
  apply Fin.ext
  match a with
  | ⟨0, _⟩ =>
    show win0_0.index t 0 * 20000 + 1 * r.val = 20000 * t.val + r.val
    rw [(hi t).1]; omega
  | ⟨1, _⟩ =>
    show win0_0.index t 1 * 128 + 1 * k.val = k.val
    rw [(hi t).2]; omega

/-- The food-row window at point `t`. -/
theorem blk1 (c : Dev nD) (t : Fin cfg0.N) (r : Fin 20000) (k : Fin 128) :
    (iblk0 (F := Ideal) V c 1 t : FVec Ideal S20000x128 .bf16) (ix2 r k) = V c main_v15 (ix2 (row t r) k) := by
  have hi : ∀ t : Fin cfg0.N, win0_1.index t (0 : Fin 2) = t.val ∧ win0_1.index t (1 : Fin 2) = 0 :=
    (by decide +kernel : ∀ t : Fin grid0.N, _)
  unfold iblk0
  rw [View.read_apply]
  show V c main_v15 _ = V c main_v15 _
  refine congrArg (V c main_v15) ?_
  funext a
  apply Fin.ext
  match a with
  | ⟨0, _⟩ =>
    show win0_1.index t 0 * 20000 + 1 * r.val = 20000 * t.val + r.val
    rw [(hi t).1]; omega
  | ⟨1, _⟩ =>
    show win0_1.index t 1 * 128 + 1 * k.val = k.val
    rw [(hi t).2]; omega

/-- The upper weight half, whole at every point. -/
theorem blk2 (c : Dev nD) (t : Fin cfg0.N) : (iblk0 (F := Ideal) V c 2 t : FVec Ideal S128x128 .bf16) = V c main_v17 := by
  have hi : ∀ t : Fin cfg0.N, win0_2.index t (0 : Fin 2) = 0 ∧ win0_2.index t (1 : Fin 2) = 0 :=
    (by decide +kernel : ∀ t : Fin grid0.N, _)
  funext y
  unfold iblk0
  rw [View.read_apply]
  show V c main_v17 _ = V c main_v17 _
  refine congrArg (V c main_v17) ?_
  funext a
  apply Fin.ext
  match a with
  | ⟨0, _⟩ =>
    show win0_2.index t 0 * 128 + 1 * (y 0).val = (y 0).val
    rw [(hi t).1]; omega
  | ⟨1, _⟩ =>
    show win0_2.index t 1 * 128 + 1 * (y 1).val = (y 1).val
    rw [(hi t).2]; omega

/-- The lower weight half, whole at every point. -/
theorem blk3 (c : Dev nD) (t : Fin cfg0.N) : (iblk0 (F := Ideal) V c 3 t : FVec Ideal S128x128 .bf16) = V c main_v19 := by
  have hi : ∀ t : Fin cfg0.N, win0_3.index t (0 : Fin 2) = 0 ∧ win0_3.index t (1 : Fin 2) = 0 :=
    (by decide +kernel : ∀ t : Fin grid0.N, _)
  funext y
  unfold iblk0
  rw [View.read_apply]
  show V c main_v19 _ = V c main_v19 _
  refine congrArg (V c main_v19) ?_
  funext a
  apply Fin.ext
  match a with
  | ⟨0, _⟩ =>
    show win0_3.index t 0 * 128 + 1 * (y 0).val = (y 0).val
    rw [(hi t).1]; omega
  | ⟨1, _⟩ =>
    show win0_3.index t 1 * 128 + 1 * (y 1).val = (y 1).val
    rw [(hi t).2]; omega

/-- The bias, whole at every point. -/
theorem blk4 (c : Dev nD) (t : Fin cfg0.N) : (iblk0 (F := Ideal) V c 4 t : FVec Ideal S128 .f32) = V c main_arg3 := by
  have hi : ∀ t : Fin cfg0.N, win0_4.index t (0 : Fin 1) = 0 :=
    (by decide +kernel : ∀ t : Fin grid0.N, _)
  funext y
  unfold iblk0
  rw [View.read_apply]
  show V c main_arg3 _ = V c main_arg3 _
  refine congrArg (V c main_arg3) ?_
  funext a
  apply Fin.ext
  match a with
  | ⟨0, _⟩ =>
    show win0_4.index t 0 * 128 + 1 * (y 0).val = (y 0).val
    rw [hi t]; omega

end Cert.KernelIdeal.Stage0Blk

end
-- ==== Proof.Region0Z.lean ====
/-
  The activations array the first launch leaves, for any contents `V` the launch is entered with: grid point t
  writes back the first-layer activations of rows 20000·t … 20000·t + 19999, and the fifty blocks tile the array.
-/
import proofs.«118335_j11098195493028_1_alg».proof.Proof.Gen.KernelIdeal.Frame
import proofs.«118335_j11098195493028_1_alg».proof.Proof.Spec
import proofs.«118335_j11098195493028_1_alg».proof.Proof.Region0Body
import proofs.«118335_j11098195493028_1_alg».proof.Proof.Region0Pay
import proofs.«118335_j11098195493028_1_alg».proof.Proof.Region0Blk
import Idealize.ShloMosaic.Lib.Pipeline.Value

set_option maxRecDepth 16384

noncomputable section

namespace Cert.KernelIdeal.Stage0Z

open Cert.KernelIdeal Cert.KernelIdeal.Gen Cert.EdgeScore Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- What the activations window's staging buffer holds after the body at point `t`: the block arithmetic of the
    five loaded blocks, at the first point and at every later one. -/
theorem outs5 (c : Dev nD) (t : Fin cfg0.N) :
    (outsAt0 (F := Ideal) V c t.val t.isLt).1
      = k0_pay4 (F := Ideal) (iblk0 V c 0 t) (iblk0 V c 1 t) (iblk0 V c 2 t) (iblk0 V c 3 t) (iblk0 V c 4 t) := by
  by_cases h0 : t.val % 50 = 0
  · rw [outsAt0_A V c t h0]
    dsimp only
    exact Stage0Body.outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact Stage0Body.outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The activations window's block index at point `t`: block `t` of the rows, the one block of the units. -/
theorem idx_facts5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- The block arithmetic over the loaded blocks of point `t` is the first layer at the block's row of the whole arrays. -/
theorem block_eq (c : Dev nD) (t : Fin cfg0.N) (r : Fin 20000) (h : Fin 128) :
    Stage0Pay.blockAct (iblk0 (F := Ideal) V c 0 t) (iblk0 (F := Ideal) V c 1 t) (iblk0 (F := Ideal) V c 2 t)
        (iblk0 (F := Ideal) V c 3 t) (iblk0 (F := Ideal) V c 4 t) r h
      = lin1 (V c main_v8) (V c main_v15) (V c main_v17) (V c main_v19) (V c main_arg3) (Stage0Blk.row t r) h := by
  unfold Stage0Pay.blockAct lin1
  rw [Stage0Blk.blk2 V c t, Stage0Blk.blk3 V c t, Stage0Blk.blk4 V c t]
  refine congrArg₂ (· + ·) (congrArg₂ (· + ·) ?_ ?_) rfl
  · exact Finset.sum_congr rfl fun k _ => congrArg (· * _) (Stage0Blk.blk0 V c t r k)
  · exact Finset.sum_congr rfl fun k _ => congrArg (· * _) (Stage0Blk.blk1 V c t r k)

/-- Where the output block of point `t` sits in the array: its row `r` is row 20000·t + r. -/
theorem emb5 (t : Fin cfg0.N) (r : Fin 20000) (h : Fin 128) :
    ((cfg0.win 5).blk t).view.emb (ix2 r h) = ix2 (Stage0Blk.row t r) h := by
  obtain ⟨e0, e1⟩ := idx_facts5 t
  funext a; apply Fin.ext
  match a with
  | ⟨0, _⟩ => show win0_5.index t (0 : Fin 2) * 20000 + 1 * r.val = 20000 * t.val + r.val; omega
  | ⟨1, _⟩ => show win0_5.index t (1 : Fin 2) * 128 + 1 * h.val = h.val; omega

/-- WHAT POINT `t` WRITES BACK is block `t` of the first layer of the arrays the launch is entered with. -/
theorem flushed5_eq (c : Dev nD) (t : Fin cfg0.N) :
    (dat0 (F := Ideal) V c).flushed 5 t = ((cfg0.win 5).blk t).view.read (Elt Ideal)
      (lin1Arr (V c main_v8) (V c main_v15) (V c main_v17) (V c main_v19) (V c main_arg3)) := by
  show (cfg0.win 5).cut (grid0.coords t) ((dat0 V c).after 5 t) = _
  rw [after0_5, outs5]
  funext y
  obtain ⟨r, h, rfl⟩ : ∃ (r : Fin 20000) (h : Fin 128), y = ix2 r h := ⟨y 0, y 1, eq_ix2 y⟩
  show k0_pay4 (F := Ideal) (iblk0 V c 0 t) (iblk0 V c 1 t) (iblk0 V c 2 t) (iblk0 V c 3 t) (iblk0 V c 4 t) (ix2 r h)
    = lin1Arr (V c main_v8) (V c main_v15) (V c main_v17) (V c main_v19) (V c main_arg3) (((cfg0.win 5).blk t).view.emb (ix2 r h))
  rw [emb5 t r h]
  refine (Stage0Pay.pay4_apply (iblk0 V c 0 t) (iblk0 V c 1 t) (iblk0 V c 2 t) (iblk0 V c 3 t) (iblk0 V c 4 t) r h).trans ?_
  exact block_eq V c t r h

/-- An index of the array is in point `t`'s block iff each coordinate is in the block's range on its axis. -/
theorem mem_blk5 (t : Fin cfg0.N) (i : S1000000x128.Idx) :
    i ∈ ((cfg0.win 5).blk t).view.set ↔ ∀ a : Fin 2, win0_5.index t a * S20000x128.size a ≤ (i a).val ∧ (i a).val < win0_5.index t a * S20000x128.size a + S20000x128.size a := by
  show i ∈ ((View.whole main_v20_0).slice (win0_5.rect t)).set ↔ _
  rw [View.set_slice_whole, Rect.mem_set_unit]
  exact Iff.rfl

/-- The fifty blocks tile the array: row `e` is in the block of point `e / 20000`. -/
theorem cover5 (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  have hN : cfg0.N = 50 := N_0
  obtain ⟨t, ht⟩ : ∃ t : Fin cfg0.N, t.val = (i 0).val / 20000 := ⟨⟨(i 0).val / 20000, by omega⟩, rfl⟩
  obtain ⟨e0, e1⟩ := idx_facts5 t
  refine ⟨t, flush0_5 t, ?_⟩
  rw [mem_blk5]
  intro a
  match a with
  | ⟨0, _⟩ => show win0_5.index t (0 : Fin 2) * 20000 ≤ (i 0).val ∧ (i 0).val < win0_5.index t (0 : Fin 2) * 20000 + 20000; omega
  | ⟨1, _⟩ => show win0_5.index t (1 : Fin 2) * 128 ≤ (i 1).val ∧ (i 1).val < win0_5.index t (1 : Fin 2) * 128 + 128; omega

/-- The activations array the first launch leaves. -/
theorem final_z (c : Dev nD) : (dat0 (F := Ideal) V c).arrAt 5 cfg0.N
    = lin1Arr (V c main_v8) (V c main_v15) (V c main_v17) (V c main_v19) (V c main_arg3) := by
  exact (dat0 (F := Ideal) V c).arrAt_eq_of_cover 5
    (lin1Arr (V c main_v8) (V c main_v15) (V c main_v17) (V c main_v19) (V c main_arg3))
    (fun t _ => flushed5_eq V c t) (fun i => cover5 i)

end Cert.KernelIdeal.Stage0Z

end
-- ==== Proof.Region0.lean ====
/-
  The first launch's three result arrays, for any contents `V` the launch is entered with: the first-layer
  activations of every edge, their column sums, and the column sums of their squares. The grid's fifty points each
  take a block of 20000 edges; the two sums are carried from point to point in one block that never moves and is
  written back after the last point.
-/
import proofs.«118335_j11098195493028_1_alg».proof.Proof.Gen.KernelIdeal.Frame
import proofs.«118335_j11098195493028_1_alg».proof.Proof.Spec
import proofs.«118335_j11098195493028_1_alg».proof.Proof.Region0Body
import proofs.«118335_j11098195493028_1_alg».proof.Proof.Region0Pay
import proofs.«118335_j11098195493028_1_alg».proof.Proof.Sums
import proofs.«118335_j11098195493028_1_alg».proof.Proof.Region0Z
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Stage0

open Cert.KernelIdeal Cert.KernelIdeal.Gen Cert.EdgeScore Idealize.ShloMosaic Idealize.ShloMosaic.TcCoe Idealize.SL.Sem
open Idealize.ShloMosaic.Pipeline (Dat)
open Idealize.ShloMosaic.ValueIdx
open Cert.KernelIdeal.Stage0Pay (blockAct)

variable (V : (c : Dev nD) → (b : Ref sig .tc) → Buf (Elt Ideal) ((c : Thread nD τ).loc b))

/-! ## The five arrays the launch reads and their blocks at a grid point, at their literal types -/

/-- The first gathered-row array. -/
abbrev xu (c : Dev nD) : FVec Ideal S1000000x128 .bf16 := V c main_v8
/-- The second gathered-row array. -/
abbrev xf (c : Dev nD) : FVec Ideal S1000000x128 .bf16 := V c main_v15
/-- The upper weight half. -/
abbrev wa (c : Dev nD) : FVec Ideal S128x128 .bf16 := V c main_v17
/-- The lower weight half. -/
abbrev wb (c : Dev nD) : FVec Ideal S128x128 .bf16 := V c main_v19
/-- The bias. -/
abbrev bb (c : Dev nD) : FVec Ideal S128 .f32 := V c main_arg3

/-- The block of each at grid point `t`. -/
abbrev blk0 (c : Dev nD) (t : Fin cfg0.N) : FVec Ideal S20000x128 .bf16 := iblk0 V c 0 t
abbrev blk1 (c : Dev nD) (t : Fin cfg0.N) : FVec Ideal S20000x128 .bf16 := iblk0 V c 1 t
abbrev blk2 (c : Dev nD) (t : Fin cfg0.N) : FVec Ideal S128x128 .bf16 := iblk0 V c 2 t
abbrev blk3 (c : Dev nD) (t : Fin cfg0.N) : FVec Ideal S128x128 .bf16 := iblk0 V c 3 t
abbrev blk4 (c : Dev nD) (t : Fin cfg0.N) : FVec Ideal S128 .f32 := iblk0 V c 4 t

/-- The block index maps, decided once over the grid: the two row windows and the activations window move along the
    rows with the point; the weights, the bias and the two running sums stay at block 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 1) = 0 :=
  (by decide +kernel : ∀ t : Fin grid0.N, win0_4.index t (0 : Fin 1) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 1) = 0 :=
  (by decide +kernel : ∀ t : Fin grid0.N, win0_6.index t (0 : Fin 1) = 0)
theorem idx7 : ∀ t : Fin cfg0.N, win0_7.index t (0 : Fin 1) = 0 :=
  (by decide +kernel : ∀ t : Fin grid0.N, win0_7.index t (0 : Fin 1) = 0)

/-- Row `r` of point `t`'s block is row `20000 t + r` of the array. -/
theorem row_lt (t : Fin cfg0.N) (r : Fin 20000) : 20000 * t.val + r.val < 1000000 := by
  have hN : cfg0.N = 50 := N_0
  have ht := t.isLt
  have hr := r.isLt
  omega

abbrev row (t : Fin cfg0.N) (r : Fin 20000) : Fin 1000000 := ⟨20000 * t.val + r.val, row_lt t r⟩

theorem blk0_apply (c : Dev nD) (t : Fin cfg0.N) (r : Fin 20000) (k : Fin 128) :
    blk0 V c t (ix2 r k) = xu V c (ix2 (row t r) k) := by
  show V c main_v8 (((cfg0.win 0).blk t).view.emb (ix2 r k)) = V c main_v8 (ix2 (row t r) k)
  refine congrArg (V c main_v8) (funext fun a => Fin.ext ?_)
  match a with
  | ⟨0, _⟩ => show win0_0.index t (0 : Fin 2) * 20000 + 1 * r.val = 20000 * t.val + r.val; rw [(idx0 t).1]; omega
  | ⟨1, _⟩ => show win0_0.index t (1 : Fin 2) * 128 + 1 * k.val = k.val; rw [(idx0 t).2]; omega

theorem blk1_apply (c : Dev nD) (t : Fin cfg0.N) (r : Fin 20000) (k : Fin 128) :
    blk1 V c t (ix2 r k) = xf V c (ix2 (row t r) k) := by
  show V c main_v15 (((cfg0.win 1).blk t).view.emb (ix2 r k)) = V c main_v15 (ix2 (row t r) k)
  refine congrArg (V c main_v15) (funext fun a => Fin.ext ?_)
  match a with
  | ⟨0, _⟩ => show win0_1.index t (0 : Fin 2) * 20000 + 1 * r.val = 20000 * t.val + r.val; rw [(idx1 t).1]; omega
  | ⟨1, _⟩ => show win0_1.index t (1 : Fin 2) * 128 + 1 * k.val = k.val; rw [(idx1 t).2]; omega

/-- The weights' and the bias's blocks are the whole arrays. -/
theorem blk2_eq (c : Dev nD) (t : Fin cfg0.N) : blk2 V c t = wa V c := by
  funext j
  show V c main_v17 (((cfg0.win 2).blk t).view.emb j) = V c main_v17 j
  refine congrArg (V c main_v17) (funext fun a => Fin.ext ?_)
  match a with
  | ⟨0, _⟩ => show win0_2.index t (0 : Fin 2) * 128 + 1 * (j 0).val = (j 0).val; rw [(idx2 t).1]; omega
  | ⟨1, _⟩ => show win0_2.index t (1 : Fin 2) * 128 + 1 * (j 1).val = (j 1).val; rw [(idx2 t).2]; omega

theorem blk3_eq (c : Dev nD) (t : Fin cfg0.N) : blk3 V c t = wb V c := by
  funext j
  show V c main_v19 (((cfg0.win 3).blk t).view.emb j) = V c main_v19 j
  refine congrArg (V c main_v19) (funext fun a => Fin.ext ?_)
  match a with
  | ⟨0, _⟩ => show win0_3.index t (0 : Fin 2) * 128 + 1 * (j 0).val = (j 0).val; rw [(idx3 t).1]; omega
  | ⟨1, _⟩ => show win0_3.index t (1 : Fin 2) * 128 + 1 * (j 1).val = (j 1).val; rw [(idx3 t).2]; omega

theorem blk4_eq (c : Dev nD) (t : Fin cfg0.N) : blk4 V c t = bb V c := by
  funext j
  show V c main_arg3 (((cfg0.win 4).blk t).view.emb j) = V c main_arg3 j
  refine congrArg (V c main_arg3) (funext fun a => Fin.ext ?_)
  match a with
  | ⟨0, _⟩ => show win0_4.index t (0 : Fin 1) * 128 + 1 * (j 0).val = (j 0).val; rw [idx4 t]; omega

/-! ## One point's block in terms of the arrays -/

/-- The first layer at unit `h` over a natural row number (zero past the last row, where it is never read). -/
def rowAct (c : Dev nD) (h : Fin 128) (e : ℕ) : EReal :=
  if he : e < 1000000 then lin1 (xu V c) (xf V c) (wa V c) (wb V c) (bb V c) ⟨e, he⟩ h else 0

theorem rowAct_fin (c : Dev nD) (h : Fin 128) (e : Fin 1000000) :
    rowAct V c h e.val = lin1 (xu V c) (xf V c) (wa V c) (wb V c) (bb V c) e h := by
  unfold rowAct
  rw [dif_pos e.isLt]

/-- A block's first layer at its row `r` is the arrays' at the row `e` the block's row is read from. -/
theorem blockAct_arr (x0 x1 : FVec Ideal S20000x128 .bf16) (x2 x3 : FVec Ideal S128x128 .bf16) (x4 : FVec Ideal S128 .f32)
    (X0 X1 : FVec Ideal S1000000x128 .bf16) (e : Fin 1000000) (r : Fin 20000) (h : Fin 128)
    (h0 : ∀ k, x0 (ix2 r k) = X0 (ix2 e k)) (h1 : ∀ k, x1 (ix2 r k) = X1 (ix2 e k)) :
    blockAct x0 x1 x2 x3 x4 r h = lin1 X0 X1 x2 x3 x4 e h := by
  unfold Stage0Pay.blockAct lin1
  simp only [h0, h1]

/-- Point `t`'s block at its row `r` is the arrays' first layer at row `20000 t + r`. -/
theorem blockAct_blk (c : Dev nD) (t : Fin cfg0.N) (r : Fin 20000) (h : Fin 128) :
    blockAct (blk0 V c t) (blk1 V c t) (blk2 V c t) (blk3 V c t) (blk4 V c t) r h = rowAct V c h (20000 * t.val + r.val) := by
  refine (blockAct_arr (blk0 V c t) (blk1 V c t) (blk2 V c t) (blk3 V c t) (blk4 V c t) (xu V c) (xf V c) (row t r) r h
    (blk0_apply V c t r) (blk1_apply V c t r)).trans ?_
  rw [blk2_eq V c t, blk3_eq V c t, blk4_eq V c t]
  exact (rowAct_fin V c h (row t r)).symm

/-! ## What the two running sums hold after each point -/

/-- The first running sum at the first point: zero plus the block's column sums. -/
theorem first6 (c : Dev nD) (t : Fin cfg0.N) (h0 : t.val % 50 = 0) (h : Fin 128) :
    (outsAt0 V c t.val t.isLt).2.1 (ix1 h) = zero + ∑ r : Fin 20000, rowAct V c h (20000 * t.val + r.val) := by
  rw [outsAt0_A V c t h0]
  dsimp only
  refine (congrFun (Stage0Body.outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 V c t) (blk1 V c t) (blk2 V c t) (blk3 V c t) (blk4 V c t)) (ix1 h)).trans ?_
  refine (Stage0Pay.pay5_apply (blk0 V c t) (blk1 V c t) (blk2 V c t) (blk3 V c t) (blk4 V c t) (k0_pay1 (F := Ideal)) h).trans ?_
  rw [Stage0Pay.pay1_apply h]
  exact congrArg (zero + ·) (Finset.sum_congr rfl fun r _ => blockAct_blk V c t r h)

/-- The first running sum at a later point: what the point before left plus the block's column sums. -/
theorem step6 (c : Dev nD) (t : Fin cfg0.N) (h0 : ¬t.val % 50 = 0) (h : Fin 128) :
    (outsAt0 V c t.val t.isLt).2.1 (ix1 h)
      = (outsAt0 V c (t.val - 1) (Nat.lt_of_le_of_lt (Nat.sub_le _ _) t.isLt)).2.1 (ix1 h) + ∑ r : Fin 20000, rowAct V c h (20000 * t.val + r.val) := by
  rw [outsAt0_B V c t h0]
  dsimp only
  refine (congrFun (Stage0Body.outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 V c t) (blk1 V c t) (blk2 V c t) (blk3 V c t) (blk4 V c t)
    (outsAt0 V c (t.val - 1) (Nat.lt_of_le_of_lt (Nat.sub_le _ _) t.isLt)).2.1 (outsAt0 V c (t.val - 1) (Nat.lt_of_le_of_lt (Nat.sub_le _ _) t.isLt)).2.2) (ix1 h)).trans ?_
  refine (Stage0Pay.pay5_apply (blk0 V c t) (blk1 V c t) (blk2 V c t) (blk3 V c t) (blk4 V c t) (outsAt0 V c (t.val - 1) (Nat.lt_of_le_of_lt (Nat.sub_le _ _) t.isLt)).2.1 h).trans ?_
  exact congrArg ((outsAt0 V c (t.val - 1) (Nat.lt_of_le_of_lt (Nat.sub_le _ _) t.isLt)).2.1 (ix1 h) + ·) (Finset.sum_congr rfl fun r _ => blockAct_blk V c t r h)

/-- The second running sum at the first point: zero plus the column sums of the block's squares. -/
theorem first7 (c : Dev nD) (t : Fin cfg0.N) (h0 : t.val % 50 = 0) (h : Fin 128) :
    (outsAt0 V c t.val t.isLt).2.2 (ix1 h)
      = zero + ∑ r : Fin 20000, rowAct V c h (20000 * t.val + r.val) * rowAct V c h (20000 * t.val + r.val) := by
  rw [outsAt0_A V c t h0]
  dsimp only
  refine (congrFun (Stage0Body.outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 V c t) (blk1 V c t) (blk2 V c t) (blk3 V c t) (blk4 V c t)) (ix1 h)).trans ?_
  refine (Stage0Pay.pay6_apply (blk0 V c t) (blk1 V c t) (blk2 V c t) (blk3 V c t) (blk4 V c t) (k0_pay2 (F := Ideal)) h).trans ?_
  rw [Stage0Pay.pay2_apply h]
  exact congrArg (zero + ·) (Finset.sum_congr rfl fun r _ => congrArg₂ (· * ·) (blockAct_blk V c t r h) (blockAct_blk V c t r h))

/-- The second running sum at a later point. -/
theorem step7 (c : Dev nD) (t : Fin cfg0.N) (h0 : ¬t.val % 50 = 0) (h : Fin 128) :
    (outsAt0 V c t.val t.isLt).2.2 (ix1 h)
      = (outsAt0 V c (t.val - 1) (Nat.lt_of_le_of_lt (Nat.sub_le _ _) t.isLt)).2.2 (ix1 h)
        + ∑ r : Fin 20000, rowAct V c h (20000 * t.val + r.val) * rowAct V c h (20000 * t.val + r.val) := by
  rw [outsAt0_B V c t h0]
  dsimp only
  refine (congrFun (Stage0Body.outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 V c t) (blk1 V c t) (blk2 V c t) (blk3 V c t) (blk4 V c t)
    (outsAt0 V c (t.val - 1) (Nat.lt_of_le_of_lt (Nat.sub_le _ _) t.isLt)).2.1 (outsAt0 V c (t.val - 1) (Nat.lt_of_le_of_lt (Nat.sub_le _ _) t.isLt)).2.2) (ix1 h)).trans ?_
  refine (Stage0Pay.pay6_apply (blk0 V c t) (blk1 V c t) (blk2 V c t) (blk3 V c t) (blk4 V c t) (outsAt0 V c (t.val - 1) (Nat.lt_of_le_of_lt (Nat.sub_le _ _) t.isLt)).2.2 h).trans ?_
  exact congrArg ((outsAt0 V c (t.val - 1) (Nat.lt_of_le_of_lt (Nat.sub_le _ _) t.isLt)).2.2 (ix1 h) + ·)
    (Finset.sum_congr rfl fun r _ => congrArg₂ (· * ·) (blockAct_blk V c t r h) (blockAct_blk V c t r h))

/-- After point `n` the first running sum is zero plus the column sums of the blocks of points 0 to n: by induction
    on the point. -/
theorem outs6 (c : Dev nD) : ∀ (n : ℕ) (hn : n < cfg0.N) (h : Fin 128),
    (outsAt0 V c n hn).2.1 (ix1 h)
      = zero + ∑ s ∈ Finset.range (n + 1), ∑ r : Fin 20000, rowAct V c h (20000 * s + r.val)
  | 0, hn, h => by
    refine (first6 V c ⟨0, hn⟩ rfl h).trans ?_
    rw [Finset.sum_range_one]
  | n + 1, hn, h => by
    have hN : cfg0.N = 50 := N_0
    have hB : ¬(⟨n + 1, hn⟩ : Fin cfg0.N).val % 50 = 0 := by dsimp only; omega
    refine (step6 V c ⟨n + 1, hn⟩ hB h).trans ?_
    show (outsAt0 V c n _).2.1 (ix1 h) + _ = _
    rw [outs6 c n (Nat.lt_of_succ_lt hn) h, Finset.sum_range_succ _ (n + 1), add_assoc]

/-- After point `n` the second running sum is zero plus the column sums of the squares of those blocks. -/
theorem outs7 (c : Dev nD) : ∀ (n : ℕ) (hn : n < cfg0.N) (h : Fin 128),
    (outsAt0 V c n hn).2.2 (ix1 h)
      = zero + ∑ s ∈ Finset.range (n + 1), ∑ r : Fin 20000,
          rowAct V c h (20000 * s + r.val) * rowAct V c h (20000 * s + r.val)
  | 0, hn, h => by
    refine (first7 V c ⟨0, hn⟩ rfl h).trans ?_
    rw [Finset.sum_range_one]
  | n + 1, hn, h => by
    have hN : cfg0.N = 50 := N_0
    have hB : ¬(⟨n + 1, hn⟩ : Fin cfg0.N).val % 50 = 0 := by dsimp only; omega
    refine (step7 V c ⟨n + 1, hn⟩ hB h).trans ?_
    show (outsAt0 V c n _).2.2 (ix1 h) + _ = _
    rw [outs7 c n (Nat.lt_of_succ_lt hn) h, Finset.sum_range_succ _ (n + 1), add_assoc]

/-! ## The write-backs and the final arrays -/

/-- The first-layer array of all the edges. -/
abbrev zArr (c : Dev nD) : SEH.Idx → EReal :=
  lin1Arr (V c main_v8) (V c main_v15) (V c main_v17) (V c main_v19) (V c main_arg3)

/-- After the last point the first running sum is the column sums over all the edges: the fifty blocks of 20000
    rows are the million rows. -/
theorem acc6_eq (c : Dev nD) (t : Fin cfg0.N) (h49 : t.val = 49) :
    (outsAt0 V c t.val t.isLt).2.1 = colSum (zArr V c) := by
  funext j
  obtain ⟨h, rfl⟩ : ∃ h, j = ix1 h := ⟨j 0, eq_ix1 j⟩
  rw [outs6 V c t.val t.isLt h, h49]
  show zero + ∑ s ∈ Finset.range 50, ∑ r : Fin 20000, rowAct V c h (20000 * s + r.val)
    = zero + ∑ e : Fin 1000000, zArr V c (ix2 e h)
  exact congrArg (zero + ·) ((sum_blocks (rowAct V c h)).trans (Finset.sum_congr rfl fun e _ => rowAct_fin V c h e))

/-- After the last point the second running sum is the column sums of the squares over all the edges. -/
theorem acc7_eq (c : Dev nD) (t : Fin cfg0.N) (h49 : t.val = 49) :
    (outsAt0 V c t.val t.isLt).2.2 = colSumSq (zArr V c) := by
  funext j
  obtain ⟨h, rfl⟩ : ∃ h, j = ix1 h := ⟨j 0, eq_ix1 j⟩
  rw [outs7 V c t.val t.isLt h, h49]
  show zero + ∑ s ∈ Finset.range 50, ∑ r : Fin 20000, rowAct V c h (20000 * s + r.val) * rowAct V c h (20000 * s + r.val)
    = zero + ∑ e : Fin 1000000, zArr V c (ix2 e h) * zArr V c (ix2 e h)
  exact congrArg (zero + ·) ((sum_blocks (fun e => rowAct V c h e * rowAct V c h e)).trans
    (Finset.sum_congr rfl fun e _ => congrArg₂ (· * ·) (rowAct_fin V c h e) (rowAct_fin V c h e)))

/-- What a write-back takes of a running sum's block is the array read through the block's zero offset: both are
    the 128 entries themselves. -/
theorem cut6 (t : Fin cfg0.N) (X : FVec Ideal S128 .f32) :
    (cfg0.win 6).cut (grid0.coords t) X = ((cfg0.win 6).blk t).view.read (Elt Ideal) X := by
  funext j
  show X _ = X (((cfg0.win 6).blk t).view.emb j)
  refine congrArg X (funext fun a => Fin.ext ?_)
  match a with
  | ⟨0, _⟩ => show (j 0).val = win0_6.index t (0 : Fin 1) * 128 + 1 * (j 0).val; rw [idx6 t]; omega

theorem cut7 (t : Fin cfg0.N) (X : FVec Ideal S128 .f32) :
    (cfg0.win 7).cut (grid0.coords t) X = ((cfg0.win 7).blk t).view.read (Elt Ideal) X := by
  funext j
  show X _ = X (((cfg0.win 7).blk t).view.emb j)
  refine congrArg X (funext fun a => Fin.ext ?_)
  match a with
  | ⟨0, _⟩ => show (j 0).val = win0_7.index t (0 : Fin 1) * 128 + 1 * (j 0).val; rw [idx7 t]; omega

/-- The one write-back of the first running sum, after the last point, writes the column sums. -/
theorem flushed6_eq (c : Dev nD) (t : Fin cfg0.N) (hf : (cfg0.win 6).flush t = true) :
    (dat0 V c).flushed 6 t = ((cfg0.win 6).blk t).view.read (Elt Ideal) (colSum (zArr V c)) := by
  have hN : cfg0.N = 50 := N_0
  have h49 : t.val = 49 := by have := (flush0_6 t).mp hf; have := t.isLt; omega
  show (cfg0.win 6).cut (grid0.coords t) ((dat0 V c).after 6 t) = _
  rw [after0_6, acc6_eq V c t h49]
  exact cut6 t (colSum (zArr V c))

/-- The one write-back of the second running sum writes the column sums of the squares. -/
theorem flushed7_eq (c : Dev nD) (t : Fin cfg0.N) (hf : (cfg0.win 7).flush t = true) :
    (dat0 V c).flushed 7 t = ((cfg0.win 7).blk t).view.read (Elt Ideal) (colSumSq (zArr V c)) := by
  have hN : cfg0.N = 50 := N_0
  have h49 : t.val = 49 := by have := (flush0_7 t).mp hf; have := t.isLt; omega
  show (cfg0.win 7).cut (grid0.coords t) ((dat0 V c).after 7 t) = _
  rw [after0_7, acc7_eq V c t h49]
  exact cut7 t (colSumSq (zArr V c))

/-- The last grid point. -/
theorem t49_lt : 49 < cfg0.N := by rw [show cfg0.N = 50 from N_0]; omega
abbrev t49 : Fin cfg0.N := ⟨49, t49_lt⟩

/-- Every index of a running sum's array is in the block the last point writes back. -/
theorem cover6 (i : S128.Idx) : ∃ t : Fin cfg0.N, (cfg0.win 6).flush t = true ∧ i ∈ ((cfg0.win 6).blk t).view.set :=
  ⟨t49, (flush0_6 t49).mpr rfl, by
    show i ∈ ((View.whole main_v20_1).slice (win0_6.rect t49)).set
    rw [View.set_slice_whole, Rect.mem_set_unit]
    intro a
    have hi : (i 0 : Nat) < 128 := (i 0).isLt
    match a with
    | ⟨0, _⟩ =>
      show win0_6.index t49 0 * win0_6.size 0 ≤ (i 0 : Nat) ∧ (i 0 : Nat) < win0_6.index t49 0 * win0_6.size 0 + win0_6.xsize (grid0.coords t49) 0
      rw [idx6 t49, show win0_6.size 0 = 128 from rfl, show win0_6.xsize (grid0.coords t49) 0 = 128 from rfl]; omega⟩

theorem cover7 (i : S128.Idx) : ∃ t : Fin cfg0.N, (cfg0.win 7).flush t = true ∧ i ∈ ((cfg0.win 7).blk t).view.set :=
  ⟨t49, (flush0_7 t49).mpr rfl, by
    show i ∈ ((View.whole main_v20_2).slice (win0_7.rect t49)).set
    rw [View.set_slice_whole, Rect.mem_set_unit]
    intro a
    have hi : (i 0 : Nat) < 128 := (i 0).isLt
    match a with
    | ⟨0, _⟩ =>
      show win0_7.index t49 0 * win0_7.size 0 ≤ (i 0 : Nat) ∧ (i 0 : Nat) < win0_7.index t49 0 * win0_7.size 0 + win0_7.xsize (grid0.coords t49) 0
      rw [idx7 t49, show win0_7.size 0 = 128 from rfl, show win0_7.xsize (grid0.coords t49) 0 = 128 from rfl]; omega⟩

/-- The activations array the first launch leaves. -/
theorem final_z (c : Dev nD) : (dat0 (F := Ideal) V c).arrAt 5 cfg0.N
    = lin1Arr (V c main_v8) (V c main_v15) (V c main_v17) (V c main_v19) (V c main_arg3) :=
  Cert.KernelIdeal.Stage0Z.final_z V c

/-- The column sums it leaves. -/
theorem final_sum (c : Dev nD) : (dat0 (F := Ideal) V c).arrAt 6 cfg0.N
    = colSum (lin1Arr (V c main_v8) (V c main_v15) (V c main_v17) (V c main_v19) (V c main_arg3)) :=
  (dat0 (F := Ideal) V c).arrAt_eq_of_cover 6 (colSum (zArr V c)) (flushed6_eq V c) cover6

/-- The column sums of squares it leaves. -/
theorem final_sumsq (c : Dev nD) : (dat0 (F := Ideal) V c).arrAt 7 cfg0.N
    = colSumSq (lin1Arr (V c main_v8) (V c main_v15) (V c main_v17) (V c main_v19) (V c main_arg3)) :=
  (dat0 (F := Ideal) V c).arrAt_eq_of_cover 7 (colSumSq (zArr V c)) (flushed7_eq V c) cover7

end Cert.KernelIdeal.Stage0

end
-- ==== Proof.LibRowSums.lean ====
/-
  THE SUM ALONG THE ROWS OF A MATRIX, READ AT AN INDEX (a general lemma; it mentions no program).

  A vector reduction with `add` of an [n, m] matrix over its second axis leaves an [n] vector whose entry r is, on the
  extended reals, the finite sum over l of the matrix's entries (r, l).
-/
import Idealize.ShloMosaic.PureOps.Ideal.Laws
import Idealize.ShloMosaic.Lib.ValueIdx

noncomputable section

open scoped BigOperators

namespace Cert.Lib.RowSums

open Idealize.ShloMosaic Idealize.ShloMosaic.ValueIdx

/-- Row r of an [n, m] matrix, summed: the reduction over axis 1 at r is the sum over the row's m entries. -/
theorem multiReduction_rows_apply {n m : ℕ} {φ : FTy} (src : FVec Ideal (⟨2, ![n, m]⟩ : Shape) φ) (acc : BitVec φ.bits)
    (h : (⟨2, ![n, m]⟩ : Shape).Reduces [1] (⟨1, ![n]⟩ : Shape)) (hφ : FKind.Formats φ) (hacc : acc = FKind.add.neutral φ hφ)
    (r : Fin n) :
    multiReduction .add [1] (⟨1, ![n]⟩ : Shape) src acc h hφ hacc (ix1 r) = ∑ l : Fin m, src (ix2 r l) := by
  rw [Ideal.multiReduction_add_single src acc h hφ hacc (ix1 r)]
  refine Finset.sum_congr rfl fun l _ => congrArg src (funext fun a => Fin.ext ?_)
  match a with
  | ⟨0, _⟩ => rfl
  | ⟨1, _⟩ => rfl

end Cert.Lib.RowSums

end
-- ==== Proof.LibColumns.lean ====
/-
  KEEPDIMS COLUMN FORMS READ AT AN INDEX (general lemmas; they mention no program).

  A row reduction that keeps its axis leaves a column: an [a] vector cast to [a, 1], then broadcast along the
  second axis to [a, b]. At (i, u) the cast reads the vector at i; at (p, c) the broadcast reads the column at (p, 0).
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Cert.Lib.Columns
-- ==== Proof.Region1.lean ====
/-
  The second launch's result array, for any contents `V` the launch is entered with: each edge's score from its
  activation row, the mean, the scale, γ, β, the second-layer weights and bias.

  The launch has 50 grid points; point t reads rows 20000·t … 20000·t + 19999 of the [1000000, 128] activation array
  and the whole of the six small arrays, and writes rows 20000·t … 20000·t + 19999 of the [1000000, 1] score column.
  First the body's arithmetic is read at one row r of a block: the logistic of the sum over the 128 units of the
  rectified, normalised activation times the second-layer weight, plus the bias. Then each input block is read as the
  rows of its array the point's rectangle names, so that what point t writes back is block t of ONE function of the
  entry contents; the 50 blocks tile the column (row e is in block e / 20000), hence the column ends holding that function.
-/
import proofs.«118335_j11098195493028_1_alg».proof.Proof.Gen.KernelIdeal.Frame
import proofs.«118335_j11098195493028_1_alg».proof.Proof.Spec
import proofs.«118335_j11098195493028_1_alg».proof.Proof.LibRowSums
import proofs.«118335_j11098195493028_1_alg».proof.Proof.LibColumns
import Idealize.ShloMosaic.Lib.Pipeline.Value
import Idealize.ShloMosaic.Lib.ValueLayout
import Idealize.ShloMosaic.PureOps.Ideal.Laws

set_option maxRecDepth 16384

noncomputable section

namespace Cert.KernelIdeal.Stage1

open Cert.KernelIdeal Cert.KernelIdeal.Gen Cert.EdgeScore Idealize.ShloMosaic Idealize.ShloMosaic.ValueIdx Idealize.ShloMosaic.TcCoe Idealize.SL.Sem
open Idealize.ShloMosaic.Pipeline (Dat)
open scoped BigOperators

/-! ## The body's arithmetic at one row of a block -/

/-- The logistic function of a vector, read at an index. -/
private theorem logistic_apply {s : Shape} {φ : FTy} (a : FVec Ideal s φ) (i : s.Idx) : logistic a i = Ideal.logistic (a i) := rfl

/-- A [128] vector made a row and repeated down 20000 rows reads, at (r, h), the vector at h. -/
private theorem row_apply (x : FVec Ideal S128 .f32) (r : Fin 20000) (h : Fin 128) :
    broadcastTo S20000x128 (shapeCast S1x128 x shapeCasts_S128_S1x128) broadcasts_S1x128_S20000x128 (ix2 r h) = x (ix1 h) :=
  (broadcastTo_1b_ab_apply _ _ r h).trans (shapeCast_a_1a_apply x _ 0 h)

/-- Row r of what the body stores: the logistic of Σₕ max((((x(r, h) − μ(h))·s(h))·γ(h)) + β(h), 0)·w(h), plus the bias. -/
private theorem pay_apply (x0 : FVec Ideal S20000x128 .bf16) (x1 x2 x3 x4 x5 : FVec Ideal S128 .f32) (x6 : FVec Ideal S1x1 .f32) (r : Fin 20000) :
    k1_pay1 (F := Ideal) x0 x1 x2 x3 x4 x5 x6 (ix2 r (0 : Fin 1))
      = Ideal.logistic ((∑ h : Fin 128, act (x0 (ix2 r h)) (x1 (ix1 h)) (x2 (ix1 h)) (x3 (ix1 h)) (x4 (ix1 h)) * x5 (ix1 h)) + x6 (ix2 (0 : Fin 1) (0 : Fin 1))) := by
  unfold k1_pay1
  simp only [logistic_apply, addf_apply, shapeCast_self]
  refine congrArg Ideal.logistic (congrArg₂ (· + ·) ?_ ?_)
  · refine (Cert.Lib.Columns.shapeCast_a_a1_apply _ _ r 0).trans ?_
    refine (Cert.Lib.RowSums.multiReduction_rows_apply _ _ _ _ _ r).trans ?_
    refine Finset.sum_congr rfl fun h _ => ?_
    simp only [mulf_apply, maximumf_apply, addf_apply, subf_apply, extf_apply, broadcast_apply, row_apply, Ideal.ofBits_def]
    rfl
  · exact broadcastTo_1b_ab_apply _ _ r 0

/-! ## The blocks the points read, as rows of their arrays -/

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-- The block indices over the grid: the activation rows and the score column move with the point, block (t, 0);
    the six small arrays stay at block 0. -/
private theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A point's number is below 50. -/
private theorem point_lt (t : Fin cfg1.N) : t.val < 50 := lt_of_lt_of_eq t.isLt N_1

/-- The seven input blocks at point t, each at its literal shape. -/
private abbrev blkX (c : Dev nD) (t : Fin cfg1.N) : FVec Ideal S20000x128 .bf16 := iblk1 V c 0 t
private abbrev blkMu (c : Dev nD) (t : Fin cfg1.N) : FVec Ideal S128 .f32 := iblk1 V c 1 t
private abbrev blkInv (c : Dev nD) (t : Fin cfg1.N) : FVec Ideal S128 .f32 := iblk1 V c 2 t
private abbrev blkGa (c : Dev nD) (t : Fin cfg1.N) : FVec Ideal S128 .f32 := iblk1 V c 3 t
private abbrev blkBe (c : Dev nD) (t : Fin cfg1.N) : FVec Ideal S128 .f32 := iblk1 V c 4 t
private abbrev blkW (c : Dev nD) (t : Fin cfg1.N) : FVec Ideal S128 .f32 := iblk1 V c 5 t
private abbrev blkB (c : Dev nD) (t : Fin cfg1.N) : FVec Ideal S1x1 .f32 := iblk1 V c 6 t

/-- Row r of point t's activation block is row 20000·t + r of the activation array. -/
private theorem blkX_apply (c : Dev nD) (t : Fin cfg1.N) (r : Fin 20000) (h : Fin 128) (hr : 20000 * t.val + r.val < 1000000) :
    blkX V c t (ix2 r h) = (V c main_v20_0 : S1000000x128.Idx → Ideal .bf16) (ix2 ⟨20000 * t.val + r.val, hr⟩ h) := by
  obtain ⟨e0, e1, -⟩ := idx_facts t
  unfold blkX iblk1
  rw [View.read_apply]
  show V c main_v20_0 _ = V c main_v20_0 _
  congr 1
  funext a
  apply Fin.ext
  match a with
  | ⟨0, _⟩ => show win1_0.index t 0 * 20000 + 1 * r.val = 20000 * t.val + r.val; rw [e0]; omega
  | ⟨1, _⟩ => show win1_0.index t 1 * 128 + 1 * h.val = h.val; rw [e1]; omega

/-- The mean's block is the whole mean vector. -/
private theorem blkMu_apply (c : Dev nD) (t : Fin cfg1.N) (h : Fin 128) :
    blkMu V c t (ix1 h) = (V c main_v22 : S128.Idx → Ideal .f32) (ix1 h) := by
  obtain ⟨-, -, e, -⟩ := idx_facts t
  unfold blkMu iblk1
  rw [View.read_apply]
  show V c main_v22 _ = V c main_v22 _
  congr 1
  funext a
  apply Fin.ext
  match a with
  | ⟨0, _⟩ => show win1_1.index t 0 * 128 + 1 * h.val = h.val; rw [e]; omega

/-- The scale's block is the whole scale vector. -/
private theorem blkInv_apply (c : Dev nD) (t : Fin cfg1.N) (h : Fin 128) :
    blkInv V c t (ix1 h) = (V c main_v29 : S128.Idx → Ideal .f32) (ix1 h) := by
  obtain ⟨-, -, -, e, -⟩ := idx_facts t
  unfold blkInv iblk1
  rw [View.read_apply]
  show V c main_v29 _ = V c main_v29 _
  congr 1
  funext a
  apply Fin.ext
  match a with
  | ⟨0, _⟩ => show win1_2.index t 0 * 128 + 1 * h.val = h.val; rw [e]; omega

/-- γ's block is the whole of γ. -/
private theorem blkGa_apply (c : Dev nD) (t : Fin cfg1.N) (h : Fin 128) :
    blkGa V c t (ix1 h) = (V c main_arg4 : S128.Idx → Ideal .f32) (ix1 h) := by
  obtain ⟨-, -, -, -, e, -⟩ := idx_facts t
  unfold blkGa iblk1
  rw [View.read_apply]
  show V c main_arg4 _ = V c main_arg4 _
  congr 1
  funext a
  apply Fin.ext
  match a with
  | ⟨0, _⟩ => show win1_3.index t 0 * 128 + 1 * h.val = h.val; rw [e]; omega

/-- β's block is the whole of β. -/
private theorem blkBe_apply (c : Dev nD) (t : Fin cfg1.N) (h : Fin 128) :
    blkBe V c t (ix1 h) = (V c main_arg5 : S128.Idx → Ideal .f32) (ix1 h) := by
  obtain ⟨-, -, -, -, -, e, -⟩ := idx_facts t
  unfold blkBe iblk1
  rw [View.read_apply]
  show V c main_arg5 _ = V c main_arg5 _
  congr 1
  funext a
  apply Fin.ext
  match a with
  | ⟨0, _⟩ => show win1_4.index t 0 * 128 + 1 * h.val = h.val; rw [e]; omega

/-- The second-layer weights' block is the whole weight vector. -/
private theorem blkW_apply (c : Dev nD) (t : Fin cfg1.N) (h : Fin 128) :
    blkW V c t (ix1 h) = (V c main_v30 : S128.Idx → Ideal .f32) (ix1 h) := by
  obtain ⟨-, -, -, -, -, -, e, -⟩ := idx_facts t
  unfold blkW iblk1
  rw [View.read_apply]
  show V c main_v30 _ = V c main_v30 _
  congr 1
  funext a
  apply Fin.ext
  match a with
  | ⟨0, _⟩ => show win1_5.index t 0 * 128 + 1 * h.val = h.val; rw [e]; omega

/-- The bias's block is the one-entry bias array. -/
private theorem blkB_apply (c : Dev nD) (t : Fin cfg1.N) :
    blkB V c t (ix2 (0 : Fin 1) (0 : Fin 1)) = (V c main_v31 : S1x1.Idx → Ideal .f32) (ix2 (0 : Fin 1) (0 : Fin 1)) := by
  obtain ⟨-, -, -, -, -, -, -, e0, e1, -⟩ := idx_facts t
  unfold blkB iblk1
  rw [View.read_apply]
  show V c main_v31 _ = V c main_v31 _
  congr 1
  funext a
  apply Fin.ext
  match a with
  | ⟨0, _⟩ => show win1_6.index t 0 * 1 + 1 * 0 = 0; rw [e0]
  | ⟨1, _⟩ => show win1_6.index t 1 * 1 + 1 * 0 = 0; rw [e1]

/-! ## What each point writes back, and the column after the 50 points -/

/-- The score column as one function of the contents the launch is entered with. -/
private abbrev scoreCol (c : Dev nD) : S1000000x1.Idx → EReal :=
  fun i : S1000000x1.Idx => Ideal.logistic (logit (fun e h => V c main_v20_0 (ix2 e h)) (fun h => V c main_v22 (ix1 h))
        (fun h => V c main_v29 (ix1 h)) (fun h => V c main_arg4 (ix1 h)) (fun h => V c main_arg5 (ix1 h))
        (fun h => V c main_v30 (ix1 h)) (V c main_v31 (ix2 (0 : Fin 1) (0 : Fin 1))) (i 0))

/-- Row r of point t's block of the score column is row 20000·t + r of the column. -/
private theorem emb7 (t : Fin cfg1.N) (r : Fin 20000) (hr : 20000 * t.val + r.val < 1000000) :
    (((cfg1.win 7).blk t).view.emb (ix2 r (0 : Fin 1)) : S1000000x1.Idx) = ix2 ⟨20000 * t.val + r.val, hr⟩ (0 : Fin 1) := by
  obtain ⟨-, -, -, -, -, -, -, -, -, e0, e1⟩ := idx_facts t
  funext a
  apply Fin.ext
  match a with
  | ⟨0, _⟩ => show win1_7.index t 0 * 20000 + 1 * r.val = 20000 * t.val + r.val; rw [e0]; omega
  | ⟨1, _⟩ => show win1_7.index t 1 * 1 + 1 * 0 = 0; rw [e1]

/-- What point t writes back is block t of the score column's function of the entry contents. -/
private theorem flushed_eq (c : Dev nD) (t : Fin cfg1.N) :
    (dat1 V c).flushed 7 t = ((cfg1.win 7).blk t).view.read (Elt Ideal) (scoreCol V c) := by
  show (cfg1.win 7).cut (grid1.coords t) ((dat1 V c).after 7 t) = _
  rw [after1_7]
  unfold out1_7
  rw [View.canon_unit_zero hz2]
  simp only [View.ld_unit_zero (S := S20000x128) hz2, View.ld_unit_zero (S := S128) hz1, View.ld_unit_zero (S := S1x1) hz2]
  funext (y : S20000x1.Idx)
  obtain ⟨r, u, rfl⟩ : ∃ (r : Fin 20000) (u : Fin 1), y = ix2 r u := ⟨y 0, y 1, eq_ix2 y⟩
  obtain rfl : u = 0 := Subsingleton.elim _ _
  have ht := point_lt t
  have hr : 20000 * t.val + r.val < 1000000 := by have := r.isLt; omega
  show k1_pay1 (F := Ideal) (blkX V c t) (blkMu V c t) (blkInv V c t) (blkGa V c t) (blkBe V c t) (blkW V c t) (blkB V c t) (ix2 r (0 : Fin 1))
    = scoreCol V c (((cfg1.win 7).blk t).view.emb (ix2 r (0 : Fin 1)))
  refine (pay_apply _ _ _ _ _ _ _ r).trans ?_
  rw [emb7 t r hr]
  show _ = Ideal.logistic (logit _ _ _ _ _ _ _ ⟨20000 * t.val + r.val, hr⟩)
  unfold logit
  rw [blkB_apply]
  refine congrArg Ideal.logistic (congrArg₂ (· + ·) (Finset.sum_congr rfl fun h _ => ?_) rfl)
  rw [blkX_apply V c t r h hr, blkMu_apply, blkInv_apply, blkGa_apply, blkBe_apply, blkW_apply]

/-- An index of the column is in point t's block iff each coordinate is in the block's range on its axis. -/
private theorem mem_blk7 (t : Fin cfg1.N) (i : S1000000x1.Idx) :
    i ∈ ((cfg1.win 7).blk t).view.set ↔ ∀ a : Fin 2, win1_7.index t a * S20000x1.size a ≤ (i a).val ∧ (i a).val < win1_7.index t a * S20000x1.size a + S20000x1.size a := by
  show i ∈ ((View.whole main_v32).slice (win1_7.rect t)).set ↔ _
  rw [View.set_slice_whole, Rect.mem_set_unit]
  exact Iff.rfl

/-- Row e of the column is in the block of point e / 20000, which is written back. -/
private theorem cover7 (i : S1000000x1.Idx) :
    ∃ t : Fin cfg1.N, (cfg1.win 7).flush t = true ∧ i ∈ ((cfg1.win 7).blk t).view.set := by
  have hi0 : (i 0).val < 1000000 := (i 0).isLt
  have hi1 : (i 1).val < 1 := (i 1).isLt
  have hq : (i 0).val / 20000 < cfg1.N := lt_of_lt_of_eq (by omega : (i 0).val / 20000 < 50) N_1.symm
  obtain ⟨t, ht⟩ : ∃ t : Fin cfg1.N, t.val = (i 0).val / 20000 := ⟨⟨_, hq⟩, rfl⟩
  obtain ⟨-, -, -, -, -, -, -, -, -, e0, e1⟩ := idx_facts t
  refine ⟨t, flush1_7 t, ?_⟩
  rw [mem_blk7]
  intro a
  match a with
  | ⟨0, _⟩ =>
    show win1_7.index t 0 * 20000 ≤ (i 0).val ∧ (i 0).val < win1_7.index t 0 * 20000 + 20000
    rw [e0, ht]; omega
  | ⟨1, _⟩ =>
    show win1_7.index t 1 * 1 ≤ (i 1).val ∧ (i 1).val < win1_7.index t 1 * 1 + 1
    rw [e1]; omega

/-- The score column the second launch leaves. -/
theorem final_score (c : Dev nD) : (dat1 (F := Ideal) V c).arrAt 7 cfg1.N
    = fun i : S1000000x1.Idx => Ideal.logistic (logit (fun e h => V c main_v20_0 (ix2 e h)) (fun h => V c main_v22 (ix1 h))
        (fun h => V c main_v29 (ix1 h)) (fun h => V c main_arg4 (ix1 h)) (fun h => V c main_arg5 (ix1 h))
        (fun h => V c main_v30 (ix1 h)) (V c main_v31 (ix2 (0 : Fin 1) (0 : Fin 1))) (i 0)) :=
  (dat1 V c).arrAt_eq_of_cover 7 (scoreCol V c) (fun t _ => flushed_eq V c t) cover7

end Cert.KernelIdeal.Stage1

end
-- ==== Proof.KernelValue.lean ====
/-
  The kernel program's result as one function of its arguments: the score of every edge, with the first layer taken
  over the gathered rows and the two weight halves, the mean and the mean-of-squares variance taken over all edges.
-/
import proofs.«118335_j11098195493028_1_alg».proof.Proof.KernelRun
import proofs.«118335_j11098195493028_1_alg».proof.Proof.Stretches
import proofs.«118335_j11098195493028_1_alg».proof.Proof.Region0
import proofs.«118335_j11098195493028_1_alg».proof.Proof.Region1
import proofs.«118335_j11098195493028_1_alg».proof.Proof.Sums
import Idealize.ShloMosaic.Lib.Pipeline.Value

set_option maxRecDepth 16384

noncomputable section

namespace Cert.KernelIdeal.Value

open Cert.KernelIdeal Cert.KernelIdeal.Gen Cert.KernelIdeal.HostVal Cert.EdgeScore
open Idealize.ShloMosaic Idealize.ShloMosaic.ValueIdx Idealize.ShloMosaic.TcCoe Idealize.SL.Sem

variable (m : (ℓ : Loc nD τ sig) → Buf (Elt Ideal) ℓ) (ρ : Dev nD → PrngReg)

/-- An `[a, 1]` column cast to `[a]` reads, at `i`, the column at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, 0)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

/-- The result buffer's last contents are that function of the launch contents of the arguments. -/
theorem W5_eq (c : Dev nD) : W5 m ρ c (Proc.devRef .tc main_v33)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  -- the first launch's three arrays, over the program's arguments
  have hz : V2 m ρ c main_v20_0
      = lin1Arr (xu (m ((c : Thread nD τ).loc main_arg0)) (m ((c : Thread nD τ).loc main_arg8)))
          (xf (m ((c : Thread nD τ).loc main_arg1)) (m ((c : Thread nD τ).loc main_arg9)))
          (wa (m ((c : Thread nD τ).loc main_arg2))) (wb (m ((c : Thread nD τ).loc main_arg2)))
          (m ((c : Thread nD τ).loc main_arg3)) := by
    have h0 := Stage0.final_z (V1 m ρ) c
    rw [Stretch.V1_v8, Stretch.V1_v15, Stretch.V1_v17, Stretch.V1_v19, Stretch.V1_arg3] at h0
    exact (hF0 m ρ c 5).symm.trans h0
  have hsum : V2 m ρ c main_v20_1
      = colSum (lin1Arr (xu (m ((c : Thread nD τ).loc main_arg0)) (m ((c : Thread nD τ).loc main_arg8)))
          (xf (m ((c : Thread nD τ).loc main_arg1)) (m ((c : Thread nD τ).loc main_arg9)))
          (wa (m ((c : Thread nD τ).loc main_arg2))) (wb (m ((c : Thread nD τ).loc main_arg2)))
          (m ((c : Thread nD τ).loc main_arg3))) := by
    have h0 := Stage0.final_sum (V1 m ρ) c
    rw [Stretch.V1_v8, Stretch.V1_v15, Stretch.V1_v17, Stretch.V1_v19, Stretch.V1_arg3] at h0
    exact (hF0 m ρ c 6).symm.trans h0
  have hsq : V2 m ρ c main_v20_2
      = colSumSq (lin1Arr (xu (m ((c : Thread nD τ).loc main_arg0)) (m ((c : Thread nD τ).loc main_arg8)))
          (xf (m ((c : Thread nD τ).loc main_arg1)) (m ((c : Thread nD τ).loc main_arg9)))
          (wa (m ((c : Thread nD τ).loc main_arg2))) (wb (m ((c : Thread nD τ).loc main_arg2)))
          (m ((c : Thread nD τ).loc main_arg3))) := by
    have h0 := Stage0.final_sumsq (V1 m ρ) c
    rw [Stretch.V1_v8, Stretch.V1_v15, Stretch.V1_v17, Stretch.V1_v19, Stretch.V1_arg3] at h0
    exact (hF0 m ρ c 7).symm.trans h0
  -- the second launch's operands, as the functions the score is stated over
  have hZ : (fun (e : Fin 1000000) (h : Fin 128) => V3 m ρ c main_v20_0 (ix2 e h))
      = zK (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
    funext e h
    rw [Stretch.V3_v20_0, hz]
    rfl
  have hmu : (fun h : Fin 128 => V3 m ρ c main_v22 (ix1 h))
      = mean (zK (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) := by
    funext h
    rw [Stretch.V3_v22, hsum]
    rfl
  have hinv : (fun h : Fin 128 => V3 m ρ c main_v29 (ix1 h))
      = fun h => Ideal.rsqrt (varMS (zK (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) h + eps) := by
    funext h
    rw [Stretch.V3_v29, hsum, hsq]
    rfl
  have hga : (fun h : Fin 128 => V3 m ρ c main_arg4 (ix1 h)) = fun h => (m ((c : Thread nD τ).loc main_arg4)) (ix1 h) := by
    rw [Stretch.V3_arg4]
  have hbe : (fun h : Fin 128 => V3 m ρ c main_arg5 (ix1 h)) = fun h => (m ((c : Thread nD τ).loc main_arg5)) (ix1 h) := by
    rw [Stretch.V3_arg5]
  have hw2 : (fun h : Fin 128 => V3 m ρ c main_v30 (ix1 h)) = fun h => (m ((c : Thread nD τ).loc main_arg6)) (ix2 h (0 : Fin 1)) := by
    funext h
    rw [Stretch.V3_v30]
    exact shapeCast_a1_a_apply _ _ h
  have hb2 : V3 m ρ c main_v31 (ix2 (0 : Fin 1) (0 : Fin 1)) = (m ((c : Thread nD τ).loc main_arg7)) (ix1 (0 : Fin 1)) := by
    rw [Stretch.V3_v31]
    exact shapeCast_a_a1_apply _ _ (0 : Fin 1)
  -- the score column the second launch leaves, cast to one score per edge
  have hs : V4 m ρ c main_v32 = _ := (hF1 m ρ c 7).symm.trans (Stage1.final_score (V3 m ρ) c)
  rw [hZ, hmu, hinv, hga, hbe, hw2, hb2] at hs
  rw [Stretch.W5_v33]
  funext i
  obtain ⟨e, rfl⟩ : ∃ e : Fin 1000000, i = ix1 e := ⟨i 0, eq_ix1 i⟩
  exact (shapeCast_a1_a_apply (a := 1000000) _ _ e).trans (congrFun hs (ix2 e (0 : Fin 1)))

/-- The kernel program's run with its result named. -/
theorem run : θ_run defs (onTc (τ := τ) (main (F := Ideal))) ⟨m, fun _ => 0, ρ⟩ (fun r => ∀ c : Dev nD,
      r.2.mem ((c.tc : Thread nD τ).loc main_v33)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (W5_eq m ρ c), (h c).2⟩) (Cert.KernelIdeal.ValueRun.run (F := Ideal) m ρ)

end Cert.KernelIdeal.Value

end
-- ==== Proof.RefValue.lean ====
/-
  The reference program's result read at an edge: the first layer over the concatenated gathered rows and the whole
  256 × 128 weight matrix, the mean and the mean-of-squared-deviations variance over all edges, then γ, β, max(·, 0), the
  second layer and 1 / (1 + exp(−·)).
-/
import proofs.«118335_j11098195493028_1_alg».proof.Proof.Gen.ReferenceIdeal.Run
import proofs.«118335_j11098195493028_1_alg».proof.Proof.Gen.ReferenceIdeal.Read
import proofs.«118335_j11098195493028_1_alg».proof.Proof.Spec

noncomputable section

namespace Cert.ReferenceIdeal.RefValue

open Cert.ReferenceIdeal Cert.ReferenceIdeal.Gen Cert.ReferenceIdeal.Read Cert.EdgeScore
open Idealize.ShloMosaic Idealize.ShloMosaic.ValueIdx

/-- The first layer as the reference computes it: the concatenated rows against the whole weight matrix. -/
def zR (x0 : FVec Ideal S100000x128 .f32) (x1 : FVec Ideal S50000x128 .f32) (x2 : FVec Ideal S256x128 .f32)
    (x3 : FVec Ideal S128 .f32) (x8 x9 : IVec S1000000 32) (e : Fin 1000000) (h : Fin 128) : EReal :=
  (∑ k : Fin 256, val_main_v14 (F := Ideal) x0 x1 x8 x9 (ix2 e k) * x2 (ix2 k h)) + x3 (ix1 h)

/-! ### Index equations: the composed index maps of the layout operations, as coordinates -/

private theorem lidx15 (e : Fin 1000000) (h : Fin 128) (k : Fin 256) : lidx_main_v15 (ix2 e h) k = ix2 e k :=
  funext fun a => Fin.ext (by match a with | ⟨0, _⟩ => rfl | ⟨1, _⟩ => rfl)
private theorem ridx15 (e : Fin 1000000) (h : Fin 128) (k : Fin 256) : ridx_main_v15 (ix2 e h) k = ix2 k h :=
  funext fun a => Fin.ext (by match a with | ⟨0, _⟩ => rfl | ⟨1, _⟩ => rfl)
private theorem idx16_17 (e : Fin 1000000) (h : Fin 128) : idx_main_v16 (idx_main_v17 (ix2 e h)) = ix1 h :=
  funext fun a => Fin.ext (by match a with | ⟨0, _⟩ => rfl)

/-- The first layer at edge `e` and unit `h`. -/
theorem z_apply (x0 : FVec Ideal S100000x128 .f32) (x1 : FVec Ideal S50000x128 .f32) (x2 : FVec Ideal S256x128 .f32)
    (x3 : FVec Ideal S128 .f32) (x8 x9 : IVec S1000000 32) (e : Fin 1000000) (h : Fin 128) :
    val_main_v18 (F := Ideal) x0 x1 x2 x3 x8 x9 (ix2 e h) = zR x0 x1 x2 x3 x8 x9 e h := by
  rw [val_main_v18_apply, val_main_v15_apply, val_main_v17_apply, val_main_v16_apply]
  simp only [lidx15, ridx15, idx16_17, Ideal.addf_def]
  rfl

private theorem idx19 (h : Fin 128) (k : Fin 1000000) : idx_main_v19 (ix1 h) k = ix2 k h :=
  funext fun a => Fin.ext (by match a with | ⟨0, _⟩ => rfl | ⟨1, _⟩ => rfl)

/-- The mean of column `h` of the first layer. -/
theorem mean_apply (x0 : FVec Ideal S100000x128 .f32) (x1 : FVec Ideal S50000x128 .f32) (x2 : FVec Ideal S256x128 .f32)
    (x3 : FVec Ideal S128 .f32) (x8 x9 : IVec S1000000 32) (h : Fin 128) :
    val_main_v21 (F := Ideal) x0 x1 x2 x3 x8 x9 (ix1 h) = mean (zR x0 x1 x2 x3 x8 x9) h := by
  rw [val_main_v21_apply, val_main_v19_apply, val_main_v20_apply, val_main_cst_apply, val_main_cst_3_apply]
  simp only [idx19, z_apply, Ideal.hostDivf_def, Ideal.ofBits_def]
  rfl

private theorem idx26 (h : Fin 128) (k : Fin 1000000) : idx_main_v26 (ix1 h) k = ix2 k h :=
  funext fun a => Fin.ext (by match a with | ⟨0, _⟩ => rfl | ⟨1, _⟩ => rfl)
private theorem idx22_23 (e : Fin 1000000) (h : Fin 128) : idx_main_v22 (idx_main_v23 (ix2 e h)) = ix1 h :=
  funext fun a => Fin.ext (by match a with | ⟨0, _⟩ => rfl)

/-- The variance of column `h` of the first layer: the mean of the squared deviations. -/
theorem var_apply (x0 : FVec Ideal S100000x128 .f32) (x1 : FVec Ideal S50000x128 .f32) (x2 : FVec Ideal S256x128 .f32)
    (x3 : FVec Ideal S128 .f32) (x8 x9 : IVec S1000000 32) (h : Fin 128) :
    val_main_v28 (F := Ideal) x0 x1 x2 x3 x8 x9 (ix1 h) = varDev (zR x0 x1 x2 x3 x8 x9) h := by
  rw [val_main_v28_apply, val_main_v26_apply, val_main_v27_apply, val_main_cst_4_apply, val_main_cst_5_apply]
  simp only [idx26, val_main_v25_apply, val_main_v24_apply, val_main_v23_apply, val_main_v22_apply, idx22_23, z_apply,
    mean_apply, Ideal.hostDivf_def, Ideal.ofBits_def, Ideal.mulf_def, Ideal.subf_def]
  rfl

private theorem idx49 (e : Fin 1000000) : idx_main_v49 (ix1 e) = ix2 e (0 : Fin 1) :=
  funext fun a => Fin.ext (by
    match a with
    | ⟨0, _⟩ => exact Nat.div_one _
    | ⟨1, _⟩ => rfl)
private theorem lidx45 (e : Fin 1000000) (k : Fin 128) : lidx_main_v45 (ix2 e (0 : Fin 1)) k = ix2 e k :=
  funext fun a => Fin.ext (by match a with | ⟨0, _⟩ => rfl | ⟨1, _⟩ => rfl)
private theorem ridx45 (e : Fin 1000000) (k : Fin 128) : ridx_main_v45 (ix2 e (0 : Fin 1)) k = ix2 k (0 : Fin 1) :=
  funext fun a => Fin.ext (by match a with | ⟨0, _⟩ => rfl | ⟨1, _⟩ => rfl)
private theorem idx46_47 (e : Fin 1000000) : idx_main_v46 (idx_main_v47 (ix2 e (0 : Fin 1))) = ix1 (0 : Fin 1) :=
  funext fun a => Fin.ext (by match a with | ⟨0, _⟩ => rfl)
private theorem idx41_42 (e : Fin 1000000) (h : Fin 128) : idx_main_v41 (idx_main_v42 (ix2 e h)) = ix1 h :=
  funext fun a => Fin.ext (by match a with | ⟨0, _⟩ => rfl)
private theorem idx38_39 (e : Fin 1000000) (h : Fin 128) : idx_main_v38 (idx_main_v39 (ix2 e h)) = ix1 h :=
  funext fun a => Fin.ext (by match a with | ⟨0, _⟩ => rfl)
private theorem idx35_36 (e : Fin 1000000) (h : Fin 128) : idx_main_v35 (idx_main_v36 (ix2 e h)) = ix1 h :=
  funext fun a => Fin.ext (by match a with | ⟨0, _⟩ => rfl)
private theorem idx29_30 (e : Fin 1000000) (h : Fin 128) : idx_main_v29 (idx_main_v30 (ix2 e h)) = ix1 h :=
  funext fun a => Fin.ext (by match a with | ⟨0, _⟩ => rfl)

/-- The normalised, rectified activation at edge `e` and unit `h`. -/
theorem act_apply (x0 : FVec Ideal S100000x128 .f32) (x1 : FVec Ideal S50000x128 .f32) (x2 : FVec Ideal S256x128 .f32)
    (x3 x4 x5 : FVec Ideal S128 .f32) (x8 x9 : IVec S1000000 32) (e : Fin 1000000) (h : Fin 128) :
    val_main_v44 (F := Ideal) x0 x1 x2 x3 x4 x5 x8 x9 (ix2 e h)
      = act (zR x0 x1 x2 x3 x8 x9 e h) (mean (zR x0 x1 x2 x3 x8 x9) h)
          (Ideal.rsqrt (varDev (zR x0 x1 x2 x3 x8 x9) h + eps)) (x4 (ix1 h)) (x5 (ix1 h)) := by
  rw [val_main_v44_apply, val_main_call0_v0_apply, val_main_call0_cst_apply, val_main_v43_apply, val_main_v42_apply,
    val_main_v41_apply, val_main_v40_apply, val_main_v39_apply, val_main_v38_apply, val_main_v37_apply, val_main_v36_apply,
    val_main_v35_apply, val_main_v34_apply, val_main_v33_apply, val_main_v32_apply, val_main_cst_6_apply, val_main_v31_apply,
    val_main_v30_apply, val_main_v29_apply]
  simp only [idx41_42, idx38_39, idx35_36, idx29_30, z_apply, mean_apply, var_apply, Ideal.maximumf_def, Ideal.addf_def,
    Ideal.mulf_def, Ideal.subf_def, Ideal.hostUnary_rsqrt_def, Ideal.ofBits_def]
  rfl
/-- The reference's result at edge `e`. -/
theorem ref_apply (x0 : FVec Ideal S100000x128 .f32) (x1 : FVec Ideal S50000x128 .f32) (x2 : FVec Ideal S256x128 .f32)
    (x3 x4 x5 : FVec Ideal S128 .f32) (x6 : FVec Ideal S128x1 .f32) (x7 : FVec Ideal S1 .f32) (x8 x9 : IVec S1000000 32)
    (e : Fin 1000000) :
    val_main_v55 (F := Ideal) x0 x1 x2 x3 x4 x5 x6 x7 x8 x9 (ix1 e)
      = Ideal.div one (one + Ideal.exp (-(logit (zR x0 x1 x2 x3 x8 x9) (mean (zR x0 x1 x2 x3 x8 x9))
          (fun h => Ideal.rsqrt (varDev (zR x0 x1 x2 x3 x8 x9) h + eps)) (fun h => x4 (ix1 h)) (fun h => x5 (ix1 h))
          (fun h => x6 (ix2 h (0 : Fin 1))) (x7 (ix1 (0 : Fin 1))) e))) := by
  rw [val_main_v55_apply, val_main_v54_apply, val_main_cst_8_apply, val_main_v53_apply, val_main_v52_apply,
    val_main_cst_7_apply, val_main_v51_apply, val_main_v50_apply, val_main_v49_apply, idx49, val_main_v48_apply,
    val_main_v47_apply, val_main_v46_apply, val_main_v45_apply]
  simp only [lidx45, ridx45, idx46_47, act_apply, Ideal.hostDivf_def, Ideal.addf_def, Ideal.hostUnary_exp_def,
    Ideal.hostNegf_def, Ideal.negf_def, Ideal.ofBits_def]
  rfl

end Cert.ReferenceIdeal.RefValue

end
-- ==== Proof.Bridge.lean ====
/-
  The two programs compute one function of their arguments.

  * The first layers agree: the reference contracts the concatenated row (user row, then food row) with the whole
    256 × 128 weight matrix; the kernel program contracts the user row with the upper half and the food row with the
    lower half and adds the two. A sum over 256 positions is the sum of its halves, the gathers read the same table
    rows (narrowing the table to half precision first is the identity over the extended reals), and a slice of the
    weight matrix reads the matrix at the shifted row.
  * Under real inputs every first-layer value is real, so the two variances agree (the variance identity), and with
    them the scales, the activations and the scores; 1 / (1 + exp(−x)) is the logistic function.
-/
import proofs.«118335_j11098195493028_1_alg».proof.Proof.KernelHost
import proofs.«118335_j11098195493028_1_alg».proof.Proof.RefValue
import proofs.«118335_j11098195493028_1_alg».proof.Proof.Sums
import Idealize.ShloMosaic.Lib.Pipeline.Value

noncomputable section

open scoped BigOperators

namespace Cert.Bridge

open Cert.KernelIdeal Cert.EdgeScore Idealize.ShloMosaic Idealize.ShloMosaic.ValueIdx
open Cert.KernelIdeal.HostVal (xu xf wa wb zK out)
open Cert.ReferenceIdeal.RefValue (zR)

/-! ### The operands, read at an index -/

/-- The reference's gathered user rows are the kernel program's. -/
theorem v6_eq_xu (x0 : FVec Ideal S100000x128 .f32) (x8 : IVec S1000000 32) (j : SEH.Idx) :
    (Cert.ReferenceIdeal.Read.val_main_v6 (F := Ideal) x0 x8 j : EReal) = xu x0 x8 j := rfl

/-- The reference's gathered food rows are the kernel program's. -/
theorem v13_eq_xf (x1 : FVec Ideal S50000x128 .f32) (x9 : IVec S1000000 32) (j : SEH.Idx) :
    (Cert.ReferenceIdeal.Read.val_main_v13 (F := Ideal) x1 x9 j : EReal) = xf x1 x9 j := rfl

/-- The upper half of the weight matrix reads the matrix at the same row. -/
theorem wa_apply (x2 : FVec Ideal S256x128 .f32) (k h : Fin 128) :
    (wa x2 (ix2 k h) : EReal) = x2 (ix2 (Fin.castAdd 128 k) h) := by
  show extractStridedSlice S128x128 ![0, 0] x2 Cert.KernelIdeal.Gen.slices_S256x128_S128x128_0_0 (ix2 k h) = _
  exact extractStridedSlice_apply _ x2 _ (ix2 k h) (ix2 (Fin.castAdd 128 k) h) (fun a => match a with
    | ⟨0, _⟩ => (Nat.zero_add _).symm
    | ⟨1, _⟩ => (Nat.zero_add _).symm)

/-- The lower half of the weight matrix reads the matrix 128 rows further down. -/
theorem wb_apply (x2 : FVec Ideal S256x128 .f32) (k h : Fin 128) :
    (wb x2 (ix2 k h) : EReal) = x2 (ix2 (Fin.natAdd 128 k) h) := by
  show extractStridedSlice S128x128 ![128, 0] x2 Cert.KernelIdeal.Gen.slices_S256x128_S128x128_128_0 (ix2 k h) = _
  exact extractStridedSlice_apply _ x2 _ (ix2 k h) (ix2 (Fin.natAdd 128 k) h) (fun a => match a with
    | ⟨0, _⟩ => rfl
    | ⟨1, _⟩ => (Nat.zero_add _).symm)

/-- The concatenated row at a position of its first half is the user row there. -/
theorem v14_left (x0 : FVec Ideal S100000x128 .f32) (x1 : FVec Ideal S50000x128 .f32) (x8 x9 : IVec S1000000 32)
    (e : Fin 1000000) (k : Fin 128) :
    (Cert.ReferenceIdeal.Read.val_main_v14 (F := Ideal) x0 x1 x8 x9 (ix2 e (Fin.castAdd 128 k)) : EReal)
      = xu x0 x8 (ix2 e k) := by
  rw [← v6_eq_xu]
  unfold Cert.ReferenceIdeal.Read.val_main_v14
  exact concatenate_pair_apply_left (t := Cert.ReferenceIdeal.S1000000x256) (s₁ := S1000000x128) (s₂ := S1000000x128)
    (1 : Fin 2) (Cert.ReferenceIdeal.Read.val_main_v6 (F := Ideal) x0 x8)
    (Cert.ReferenceIdeal.Read.val_main_v13 (F := Ideal) x1 x9)
    Cert.ReferenceIdeal.Gen.concatenates_S1000000x128_S1000000x128_S1000000x256_d1
    (ix2 e (Fin.castAdd 128 k)) rfl (ix2 e k) (fun b => match b with
    | ⟨0, _⟩ => rfl
    | ⟨1, _⟩ => rfl)

/-- The concatenated row at a position of its second half is the food row 128 positions back. -/
theorem v14_right (x0 : FVec Ideal S100000x128 .f32) (x1 : FVec Ideal S50000x128 .f32) (x8 x9 : IVec S1000000 32)
    (e : Fin 1000000) (k : Fin 128) :
    (Cert.ReferenceIdeal.Read.val_main_v14 (F := Ideal) x0 x1 x8 x9 (ix2 e (Fin.natAdd 128 k)) : EReal)
      = xf x1 x9 (ix2 e k) := by
  rw [← v13_eq_xf]
  unfold Cert.ReferenceIdeal.Read.val_main_v14
  exact concatenate_pair_apply_right (t := Cert.ReferenceIdeal.S1000000x256) (s₁ := S1000000x128) (s₂ := S1000000x128)
    (1 : Fin 2) (Cert.ReferenceIdeal.Read.val_main_v6 (F := Ideal) x0 x8)
    (Cert.ReferenceIdeal.Read.val_main_v13 (F := Ideal) x1 x9)
    Cert.ReferenceIdeal.Gen.concatenates_S1000000x128_S1000000x128_S1000000x256_d1
    (ix2 e (Fin.natAdd 128 k)) rfl rfl (ix2 e k) (fun b => match b with
    | ⟨0, _⟩ => fun _ => rfl
    | ⟨1, _⟩ => fun hne => absurd rfl hne) (Nat.add_comm _ _)

/-- The reference's first layer is the kernel program's. -/
theorem zR_eq_zK (x0 : FVec Ideal S100000x128 .f32) (x1 : FVec Ideal S50000x128 .f32) (x2 : FVec Ideal S256x128 .f32)
    (x3 : FVec Ideal S128 .f32) (x8 x9 : IVec S1000000 32) (e : Fin 1000000) (h : Fin 128) :
    zR x0 x1 x2 x3 x8 x9 e h = zK x0 x1 x2 x3 x8 x9 e h := by
  unfold zR zK lin1
  rw [sum_halves]
  simp only [v14_left, v14_right, wa_apply, wb_apply]

/-- Under real inputs the first layer is real. -/
theorem zK_real (x0 : FVec Ideal S100000x128 .f32) (x1 : FVec Ideal S50000x128 .f32) (x2 : FVec Ideal S256x128 .f32)
    (x3 : FVec Ideal S128 .f32) (x8 x9 : IVec S1000000 32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (e : Fin 1000000) (h : Fin 128) :
    ∃ r : ℝ, zK x0 x1 x2 x3 x8 x9 e h = (r : EReal) := by
  unfold zK
  refine lin1_real (xu x0 x8) (xf x1 x9) (wa x2) (wb x2) x3 (fun i => ?_) (fun i => ?_) (fun i => ?_) (fun i => ?_) h3 e h
  · unfold xu Host.gather
    exact h0 _
  · unfold xf Host.gather
    exact h1 _
  · unfold wa extractStridedSlice
    exact h2 _
  · unfold wb extractStridedSlice
    exact h2 _

/-- Under real inputs the reference's result is the kernel program's. -/
theorem result_eq (x0 : FVec Ideal S100000x128 .f32) (x1 : FVec Ideal S50000x128 .f32) (x2 : FVec Ideal S256x128 .f32)
    (x3 x4 x5 : FVec Ideal S128 .f32) (x6 : FVec Ideal S128x1 .f32) (x7 : FVec Ideal S1 .f32) (x8 x9 : IVec S1000000 32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) :
    Cert.ReferenceIdeal.Read.val_main_v55 (F := Ideal) x0 x1 x2 x3 x4 x5 x6 x7 x8 x9 = out x0 x1 x2 x3 x4 x5 x6 x7 x8 x9 := by
  funext i
  obtain ⟨e, rfl⟩ : ∃ e : Fin 1000000, i = ix1 e := ⟨i 0, eq_ix1 i⟩
  rw [Cert.ReferenceIdeal.RefValue.ref_apply]
  have hz : zR x0 x1 x2 x3 x8 x9 = zK x0 x1 x2 x3 x8 x9 :=
    funext fun e => funext fun h => zR_eq_zK x0 x1 x2 x3 x8 x9 e h
  have hv : (fun h => Ideal.rsqrt (varDev (zK x0 x1 x2 x3 x8 x9) h + eps))
      = fun h => Ideal.rsqrt (varMS (zK x0 x1 x2 x3 x8 x9) h + eps) :=
    funext fun h => by
      rw [varDev_eq_varMS (zK x0 x1 x2 x3 x8 x9) h (fun e => zK_real x0 x1 x2 x3 x8 x9 h0 h1 h2 h3 e h)]
  rw [hz, hv, one_eq]
  rfl

end Cert.Bridge

end
-- ==== Proof.Finite.lean ====
/-
  What the precondition says: every entry of the two embedding tables, of the first weight matrix and of the first
  bias is a real number (neither infinity).

  The precondition is a conjunction of eight tests, one per float input, each of the form "every entry x has
  |x| < +∞". On the extended reals |x| = max x (-x), which is +∞ at both infinities, so the test at an entry
  says that the entry is a real number. A conjunction of bits is 1 only if every bit is 1, and an "and"-reduction
  over a whole array is 1 only if every entry is 1.
-/
import proofs.«118335_j11098195493028_1_alg».proof.Defs
import proofs.«118335_j11098195493028_1_alg».proof.Proof.Gen.Pre_finite_inputs
import Idealize.ShloMosaic.Lib.ReduceAll

noncomputable section

namespace Cert.Finite

open Idealize.ShloMosaic

/-- The shape of a scalar has exactly one index. -/
private instance subsingleton_scalar_idx : Subsingleton Cert.Pre_finite_inputs.S_.Idx :=
  ⟨fun a b => funext fun d => d.elim0⟩

/-- The single-precision pattern 0x7F800000 denotes +∞. -/
private theorem ofBits_pos_inf : Ideal.ofBits .f32 0x7F800000#32 = ⊤ := by
  simp [Ideal.ofBits, Ideal.ieee]

/-- An extended real whose absolute value max x (-x) lies below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- One test read back at an entry: if |x| < c with c = +∞ gives the bit 1, then x is a real number. -/
private theorem real_of_cmp (x c : EReal) (hc : c = ⊤)
    (h : FloatOps.cmpf (F := Ideal) (φ := .f32) .olt (FloatOps.hostAbsf (F := Ideal) (φ := .f32) x) c = 1#1) :
    ∃ r : ℝ, x = (r : EReal) := by
  subst hc
  refine real_of_abs_lt_top x ?_
  have h' : BitVec.ofBool (decide (max x (-x) < (⊤ : EReal))) = 1#1 := h
  by_contra hn
  rw [decide_eq_false hn] at h'
  exact absurd h' (by decide)

/-- The whole test for one input, at any shape: an "and"-reduction over every axis of the bits |x i| < c i, with
    c constantly +∞, that comes out 1 says that every entry of x is a real number. -/
private theorem real_of_all {s : Shape} {axes : List (Fin s.rank)} (x c : FVec Ideal s .f32) (hc : ∀ i, c i = ⊤)
    (init : IVec Cert.Pre_finite_inputs.S_ 1) (hr : s.ReducesTo axes Cert.Pre_finite_inputs.S_)
    (hu : 0 < Cert.Pre_finite_inputs.S_.numel) (j : Cert.Pre_finite_inputs.S_.Idx)
    (e : Host.reduce IntOp.andi (cmpf .olt (Host.absf x) c) init hr hu j = 1#1) (i : s.Idx) :
    ∃ r : ℝ, x i = (r : EReal) :=
  real_of_cmp (x i) (c i) (hc i) (Host.reduce_andi_all _ init hr hu j e i)

/-- Under the precondition the four float inputs of the first layer hold real numbers. -/
theorem real_of_pre (x0 : FVec Ideal Cert.Pre_finite_inputs.S100000x128 .f32) (x1 : FVec Ideal Cert.Pre_finite_inputs.S50000x128 .f32)
    (x2 : FVec Ideal Cert.Pre_finite_inputs.S256x128 .f32) (x3 x4 x5 : FVec Ideal Cert.Pre_finite_inputs.S128 .f32)
    (x6 : FVec Ideal Cert.Pre_finite_inputs.S128x1 .f32) (x7 : FVec Ideal Cert.Pre_finite_inputs.S1 .f32)
    (x8 x9 : IVec Cert.Pre_finite_inputs.S1000000 32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h1 := congrFun h (fun a => a.elim0)
  dsimp only [Cert.Pre_finite_inputs.fn, Cert.Pre_finite_inputs.fn_part1, Cert.Pre_finite_inputs.fn_part2,
    Idealize.ShloMosaic.andi] at h1
  simp only [IntOp.andi_eq_one] at h1
  obtain ⟨⟨⟨⟨⟨⟨⟨e0, e1⟩, e2⟩, e3⟩, -⟩, -⟩, -⟩, -⟩ := h1
  exact ⟨real_of_all x0 _ (fun _ => ofBits_pos_inf) _ _ _ _ e0, real_of_all x1 _ (fun _ => ofBits_pos_inf) _ _ _ _ e1,
    real_of_all x2 _ (fun _ => ofBits_pos_inf) _ _ _ _ e2, real_of_all x3 _ (fun _ => ofBits_pos_inf) _ _ _ _ e3⟩

end Cert.Finite

end
-- ==== Proof.lean ====
/-
  The certificate: an edge-scoring network over a bipartite graph (gathered user and food embedding rows, a first
  layer, batch normalisation over all edges, max(·, 0), a second layer, the logistic function) as a two-launch kernel
  program against its plain reference.

  The frames of the two kernel programs are the generated ones; the reference's frame is its generated run with the
  result dropped. The idealization rewrote nothing. Over the extended reals both programs end at one function of
  the arguments: the kernel program's result is read off its run (`Cert.KernelIdeal.Value.run`), the reference's off
  its run, and under the precondition (every float input real) the two agree (`Cert.Bridge.result_eq`): the first
  layers are one sum split in halves, and the variance as mean of squares minus squared mean is the mean of squared
  deviations for a column of real numbers.
-/
import proofs.«118335_j11098195493028_1_alg».proof.Defs
import proofs.«118335_j11098195493028_1_alg».proof.Proof.Gen.Kernel
import proofs.«118335_j11098195493028_1_alg».proof.Proof.Gen.Kernel.Frame
import proofs.«118335_j11098195493028_1_alg».proof.Proof.Gen.KernelIdeal
import proofs.«118335_j11098195493028_1_alg».proof.Proof.Gen.KernelIdeal.Frame
import proofs.«118335_j11098195493028_1_alg».proof.Proof.Gen.ReferenceIdeal
import proofs.«118335_j11098195493028_1_alg».proof.Proof.Gen.ReferenceIdeal.Run
import proofs.«118335_j11098195493028_1_alg».proof.Proof.Gen.ReferenceIdeal.Read
import proofs.«118335_j11098195493028_1_alg».proof.Proof.Gen.Pre_finite_inputs
import proofs.«118335_j11098195493028_1_alg».proof.Proof.KernelValue
import proofs.«118335_j11098195493028_1_alg».proof.Proof.Bridge
import proofs.«118335_j11098195493028_1_alg».proof.Proof.Finite
import Idealize.ShloMosaic.Adequacy
import Idealize.ShloMosaic.Init

noncomputable section

namespace Cert.Proof

open Idealize.ShloMosaic Idealize.SL.Sem

/-- The kernel program runs and keeps its arguments, at the word level. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both programs end at the same scores. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.HostVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Finite.real_of_pre _ _ _ _ _ _ _ _ _ _ (hpre c)
  rw [Cert.ReferenceIdeal.Read.val_main_v55_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.Bridge.result_eq _ _ _ _ _ _ _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
